-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192 : Shape := ⟨2, ![4, 8192]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) (main_arg2 : IVec S4x8192 1) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x3x8192 : Shape := ⟨3, ![4, 3, 8192]⟩
abbrev S4x1x8192 : Shape := ⟨3, ![4, 1, 8192]⟩
abbrev S_ : Shape := ⟨0, ![]⟩
abbrev S4x8192x1 : Shape := ⟨3, ![4, 8192, 1]⟩
abbrev S1x1024x3 : Shape := ⟨3, ![1, 1024, 3]⟩
abbrev S1x3x2048 : Shape := ⟨3, ![1, 3, 2048]⟩
abbrev S1x1x2048 : Shape := ⟨3, ![1, 1, 2048]⟩
abbrev S1x1024x1 : Shape := ⟨3, ![1, 1024, 1]⟩
abbrev S1x1x8192 : Shape := ⟨3, ![1, 1, 8192]⟩
abbrev S1x8192 : Shape := ⟨2, ![1, 8192]⟩
abbrev S1024x3 : Shape := ⟨2, ![1024, 3]⟩
abbrev S3x2048 : Shape := ⟨2, ![3, 2048]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S2048 : Shape := ⟨1, ![2048]⟩
abbrev S4 : Shape := ⟨1, ![4]⟩

abbrev nBuf : Space → Nat
  | .hbm => 41
  | .vmem => 11
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .i1⟩
  | .hbm, ⟨3, _⟩ => ⟨S4x3x8192, .f32⟩
  | .hbm, ⟨4, _⟩ => ⟨S4x1x8192, .i1⟩
  | .hbm, ⟨5, _⟩ => ⟨S_, .f32⟩
  | .hbm, ⟨6, _⟩ => ⟨S_, .f32⟩
  | .hbm, ⟨7, _⟩ => ⟨S4x1x8192, .f32⟩
  | .hbm, ⟨8, _⟩ => ⟨S4x1x8192, .f32⟩
  | .hbm, ⟨9, _⟩ => ⟨S4x1x8192, .f32⟩
  | .hbm, ⟨10, _⟩ => ⟨S4x1x8192, .f32⟩
  | .hbm, ⟨11, _⟩ => ⟨S4x8192x1, .f32⟩
  | .hbm, ⟨12, _⟩ => ⟨S4x1x8192, .f32⟩
  | .hbm, ⟨13, _⟩ => ⟨S4x8192, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4x8192, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1, .f32⟩
  | .local _ .vmem, ⟨7, _⟩ => ⟨S1x1024x1, .f32⟩
  | .local _ .vmem, ⟨8, _⟩ => ⟨S1x1x8192, .f32⟩
  | .local _ .vmem, ⟨9, _⟩ => ⟨S1x1x8192, .f32⟩
  | .local _ .vmem, ⟨10, _⟩ => ⟨S1x1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev main_cst_9 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v46 : BitVec 32 := Scalar.muli arg2 c2048_i32
  v46
def k0_off1 (i : grid0.Coords) : Fin 3 → Nat :=
  let c0_19 : Index := 0#32
  let c0_20 : Index := 0#32
  let arg2 : BitVec 32 := BitVec.ofNat 32 (i 2).val
  let c2048_i32 : BitVec 32 := 2048#32
  let v46 : BitVec 32 := Scalar.muli arg2 c2048_i32
  let v47 : BitVec 32 := v46
  let v48 : Index := Scalar.indexCast v47
  ![0, 0, v48.toNat]
def k0_cond3 (i : grid0.Coords) : BitVec 1 :=
  let arg2 : BitVec 32 := BitVec.ofNat 32 (i 2).val
  let c3_i32 : BitVec 32 := 3#32
  let v57 : BitVec 1 := Scalar.cmpi .eq arg2 c3_i32
  let v58 : BitVec 32 := Scalar.extui v57
  let c0_i32_23 : BitVec 32 := 0#32
  let v59 : BitVec 1 := Scalar.cmpi .ne v58 c0_i32_23
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  transposes_S4x8192x3_S4x3x8192_0_2_1 : S4x8192x3.Transposes [0, 2, 1] S4x3x8192
  bcast_S4x8192_S4x1x8192_0_2 : S4x8192.BroadcastsInDim S4x1x8192 (![0, 2] : Fin 2 → Fin S4x1x8192.rank)
  bcast_S_S4x1x8192 : S_.BroadcastsInDim S4x1x8192 (![] : Fin 0 → Fin S4x1x8192.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S1024x1_S1024x2048 : S1024x1.Broadcasts S1024x2048
  broadcasts_S1x2048_S1024x2048 : S1x2048.Broadcasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S1024x2048_S1024 : S1024x2048.Reduces [1] S1024
  shapeCasts_S1024_S1024x1 : S1024.ShapeCasts S1024x1
  shapeCasts_S1024x1_S1x1024x1 : S1024x1.ShapeCasts S1x1024x1
  reduces_S1024x2048_S2048 : S1024x2048.Reduces [0] S2048
  shapeCasts_S2048_S1x2048 : S2048.ShapeCasts S1x2048
  shapeCasts_S1x1x2048_S2048 : S1x1x2048.ShapeCasts S2048
  shapeCasts_S1x2048_S2048 : S1x2048.ShapeCasts S2048
  shapeCasts_S2048_S1x1x2048 : S2048.ShapeCasts S1x1x2048
  shapeCasts_S4x8192x1_S4x8192 : S4x8192x1.ShapeCasts S4x8192
  reducesTo_S4x8192_S4_d1 : S4x8192.ReducesTo [1] S4
  h_S_ : 0 < S_.numel
  bcast_S_S4 : S_.BroadcastsInDim S4 (![] : Fin 0 → Fin S4.rank)
  shapeCasts_S4x1x8192_S4x8192 : S4x1x8192.ShapeCasts S4x8192
  reducesTo_S4_S_d0 : S4.ReducesTo [0] S_
  hrank0 : 0 < grid0.rank
  k0_mult1_dvd : ∀ i : grid0.Coords, 2048 ∣ (k0_mult1 i).toNat
  k0_off1_inb : ∀ i : grid0.Coords, ∀ a, (k0_off1 i) a + S1x1x2048.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S4x8192x1.size a
  hwx0_3 : ∀ i : grid0.Coords, EltTy.bits .f32 = 32 ∨ (Rect.block (s := S4x8192x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S4x1x8192.size a
  hwx0_4 : ∀ i : grid0.Coords, EltTy.bits .f32 = 32 ∨ (Rect.block (s := S4x1x8192) S1x1x8192.size (cc0_transform_4 i) (hinb0_4 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun _ => false | ⟨_ + 5, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x8192 : Shape := ⟨2, ![4, 8192]⟩
abbrev S_ : Shape := ⟨0, ![]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .i1⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S4x1x8192, .i1⟩
  | .hbm, ⟨20, _⟩ => ⟨S_, .f32⟩
  | .hbm, ⟨21, _⟩ => ⟨S_, .f32⟩
  | .hbm, ⟨22, _⟩ => ⟨S4x8192x8192, .i1⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_cst_11 : Ref sig .tc := ⟨.hbm, 46, rfl⟩
abbrev main_v28 : Ref sig .tc := ⟨.hbm, 47, rfl⟩
abbrev main_cst_12 : Ref sig .tc := ⟨.hbm, 48, rfl⟩
abbrev main_v29 : Ref sig .tc := ⟨.hbm, 49, rfl⟩
abbrev main_cst_13 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KbCases.lean ====
/-
  The kernel body's control, point by point. The grid has 4 × 8 × 4 = 128 points, batch outermost and the
  column tile innermost: point t is batch t / 32, row tile (t % 32) / 4, column tile t % 4. The body resets
  its row-minimum scratch at the first column tile (t % 4 = 0), resets the column-minimum output block at the
  first point of a batch (t % 32 = 0), and copies the scratch to the row-minimum output at the last column
  tile (t % 4 = 3), the only points where that output's window is not idle.
-/
import proofs.«414502_j84739704750726_3_alg».proof.Proof.Gen.Kernel.Frame
import proofs.«414502_j84739704750726_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, decided over the grid -/

/-- "The column tile is the first": the scratch is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "Row tile and column tile are both the first": the column-minimum block is reset. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 32 = 0 :=
  (by decide +kernel : ∀ t : Fin grid0.N, cond0_1 (grid0.coords t) ↔ t.val % 32 = 0)

/-- "The column tile is the last": the scratch is copied out. -/
abbrev cond0_2 (i : grid0.Coords) : Prop := k0_cond3 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- The row-minimum output's window is idle exactly away from the last column tile. -/
theorem idleAt0_3 : ∀ t : Fin cfg0.N, cfg0.idle 3 (grid0.coords t) = true ↔ ¬ t.val % 4 = 3 :=
  (by decide +kernel : ∀ t : Fin grid0.N, cfg0.idle 3 (grid0.coords t) = true ↔ ¬ t.val % 4 = 3)

/-! ## The staging memrefs the body is called with -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8192 .f32 := win0_4.stage (cfg0.slots t 4)
abbrev hs0_4 (t : Fin cfg0.N) : (ms0_4 t).IsWhole := hstage0_4 ((cfg0.slots t 4).cast nbuf0_4)
/-- The row-minimum scratch: a whole scoped buffer of the kernel's own. -/
abbrev scM0_0 : Memref sig .tc .vmem S1x1024x1 .f32 := Memref.whole cc0_scratch0
/-- Views through which a list of stored pieces is read back as one array. -/
abbrev VS0_0 : View sig .tc .vmem S1x1024x1 .f32 := scM0_0.view
abbrev VO0_3 : View sig .tc .vmem S1x1024x1 .f32 := (Memref.whole cc0_stg3_0 : Memref sig .tc .vmem S1x1024x1 .f32).view
abbrev VO0_4 : View sig .tc .vmem S1x1x8192 .f32 := (Memref.whole cc0_stg4_0 : Memref sig .tc .vmem S1x1x8192 .f32).view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.KbRunA.lean ====
/-
  The kernel body run once, at the first point of a batch (row tile 0, column tile 0): both resets are taken, nothing is copied out. The column-minimum block is stored whole (all +∞) and then its first column tile is lowered by this tile's column minima; the scratch is reset and lowered by this tile's row minima. What either buffer held before is overwritten.
  The run is stated on any whole staging memrefs holding the three input blocks; the lists of stored pieces
  (last store first) that each written buffer ends with are found by running the body, and are the value of this
  definition beside the proof that the body runs to them.
-/
import proofs.«414502_j84739704750726_3_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) :
    (L4 : List (View.Piece (Elt F) S1x1x8192 .f32)) ×' { LS0 : List (View.Piece (Elt F) S1x1024x1 .f32) //
      ∀ (E : Set ℕ) (K : PUnit → sProp 𝕄) (x3 : Vec F S1x1024x1 .f32),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K x3 => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Body

end
-- ==== Proof.KbRunB.lean ====
/-
  The kernel body run once, at a middle column tile: nothing is reset or copied out; the scratch kept from the point before is lowered by this tile's row minima and the column-minimum block's column tile by this tile's column minima.
  The run is stated on any whole staging memrefs holding the three input blocks; the lists of stored pieces
  (last store first) that each written buffer ends with are found by running the body, and are the value of this
  definition beside the proof that the body runs to them.
-/
import proofs.«414502_j84739704750726_3_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) :
    (L4 : List (View.Piece (Elt F) S1x1x8192 .f32)) ×' { LS0 : List (View.Piece (Elt F) S1x1024x1 .f32) //
      ∀ (E : Set ℕ) (K : PUnit → sProp 𝕄) (x3 : Vec F S1x1024x1 .f32),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xo4) L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K x3 => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    iexists _; iexact HS0

end Cert.Kernel.Body

end
-- ==== Proof.KbRunC.lean ====
/-
  The kernel body run once, at the last column tile: as at a middle one, and then the scratch, now the row minima over all four column tiles, is stored whole into the row-minimum output's buffer, whatever that held.
  The run is stated on any whole staging memrefs holding the three input blocks; the lists of stored pieces
  (last store first) that each written buffer ends with are found by running the body, and are the value of this
  definition beside the proof that the body runs to them.
-/
import proofs.«414502_j84739704750726_3_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) :
    (L3 : List (View.Piece (Elt F) S1x1024x1 .f32)) ×' (L4 : List (View.Piece (Elt F) S1x1x8192 .f32)) ×' { LS0 : List (View.Piece (Elt F) S1x1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xo4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xo4) L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexact H4
    iexists _; iexact HS0

end Cert.Kernel.Body

end
-- ==== Proof.KbRunD.lean ====
/-
  The kernel body run once, at the first column tile of a later row tile: the scratch is reset, the column-minimum block is kept from the point before and its first column tile lowered by this tile's column minima.
  The run is stated on any whole staging memrefs holding the three input blocks; the lists of stored pieces
  (last store first) that each written buffer ends with are found by running the body, and are the value of this
  definition beside the proof that the body runs to them.
-/
import proofs.«414502_j84739704750726_3_alg».proof.Proof.KbCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) :
    (L4 : List (View.Piece (Elt F) S1x1x8192 .f32)) ×' { LS0 : List (View.Piece (Elt F) S1x1024x1 .f32) //
      ∀ (E : Set ℕ) (K : PUnit → sProp 𝕄) (x3 : Vec F S1x1024x1 .f32),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xo4) L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K x3 => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    iexists _; iexact HS0

end Cert.Kernel.Body

end
-- ==== Proof.KbOuts.lean ====
/-
  What each case of the body's control leaves in the buffers it writes: the row-minimum scratch, the
  column-minimum output block and, at a last column tile, the row-minimum output's buffer. Each is the case's
  stored pieces read back as one array: over nothing where a reset or a whole store covers the buffer, over what
  the point before left for the column-minimum block away from its reset.
-/
import proofs.«414502_j84739704750726_3_alg».proof.Proof.KbRunA
import proofs.«414502_j84739704750726_3_alg».proof.Proof.KbRunB
import proofs.«414502_j84739704750726_3_alg».proof.Proof.KbRunC
import proofs.«414502_j84739704750726_3_alg».proof.Proof.KbRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored pieces cover the buffers that are reset or stored whole -/

theorem scover0_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) (y : S1x1024x1.Idx) :
    ∃ pc ∈ (kernelRun0_A c i arg3 harg3 arg4 harg4 arg5 harg5 arg6 harg6 arg7 harg7 arg8 harg8 hc0 hc1 hc2 x0 x1 x2).2.1, y ∈ pc.1.set :=
  View.cover_of_tiledL (kernelRun0_A c i arg3 harg3 arg4 harg4 arg5 harg5 arg6 harg6 arg7 harg7 arg8 harg8 hc0 hc1 hc2 x0 x1 x2).2.1 S1x1024x1.size (by sl_kernel_rfl) y

theorem scover0_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (y : S1x1024x1.Idx) :
    ∃ pc ∈ (kernelRun0_D c i arg3 harg3 arg4 harg4 arg5 harg5 arg6 harg6 arg7 harg7 arg8 harg8 hc0 hc1 hc2 x0 x1 x2 xo4).2.1, y ∈ pc.1.set :=
  View.cover_of_tiledL (kernelRun0_D c i arg3 harg3 arg4 harg4 arg5 harg5 arg6 harg6 arg7 harg7 arg8 harg8 hc0 hc1 hc2 x0 x1 x2 xo4).2.1 S1x1024x1.size (by sl_kernel_rfl) y

theorem scover0_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) (y : S1x1024x1.Idx) :
    ∃ pc ∈ (kernelRun0_B c i arg3 harg3 arg4 harg4 arg5 harg5 arg6 harg6 arg7 harg7 arg8 harg8 hc0 hc1 hc2 x0 x1 x2 xo4 xs0).2.1, y ∈ pc.1.set :=
  View.cover_of_tiledL (kernelRun0_B c i arg3 harg3 arg4 harg4 arg5 harg5 arg6 harg6 arg7 harg7 arg8 harg8 hc0 hc1 hc2 x0 x1 x2 xo4 xs0).2.1 S1x1024x1.size (by sl_kernel_rfl) y

theorem scover0_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) (y : S1x1024x1.Idx) :
    ∃ pc ∈ (kernelRun0_C c i arg3 harg3 arg4 harg4 arg5 harg5 arg6 harg6 arg7 harg7 arg8 harg8 hc0 hc1 hc2 x0 x1 x2 xo4 xs0).2.2.1, y ∈ pc.1.set :=
  View.cover_of_tiledL (kernelRun0_C c i arg3 harg3 arg4 harg4 arg5 harg5 arg6 harg6 arg7 harg7 arg8 harg8 hc0 hc1 hc2 x0 x1 x2 xo4 xs0).2.2.1 S1x1024x1.size (by sl_kernel_rfl) y

theorem cover0_A_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) (y : S1x1x8192.Idx) :
    ∃ pc ∈ (kernelRun0_A c i arg3 harg3 arg4 harg4 arg5 harg5 arg6 harg6 arg7 harg7 arg8 harg8 hc0 hc1 hc2 x0 x1 x2).1, y ∈ pc.1.set :=
  View.cover_of_tiledL (kernelRun0_A c i arg3 harg3 arg4 harg4 arg5 harg5 arg6 harg6 arg7 harg7 arg8 harg8 hc0 hc1 hc2 x0 x1 x2).1 S1x1x8192.size (by sl_kernel_rfl) y

theorem cover0_C_3 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) (y : S1x1024x1.Idx) :
    ∃ pc ∈ (kernelRun0_C c i arg3 harg3 arg4 harg4 arg5 harg5 arg6 harg6 arg7 harg7 arg8 harg8 hc0 hc1 hc2 x0 x1 x2 xo4 xs0).1, y ∈ pc.1.set :=
  View.cover_of_tiledL (kernelRun0_C c i arg3 harg3 arg4 harg4 arg5 harg5 arg6 harg6 arg7 harg7 arg8 harg8 hc0 hc1 hc2 x0 x1 x2 xo4 xs0).1 S1x1024x1.size (by sl_kernel_rfl) y

/-! ## What each case leaves -/

/-- The scratch after a point of case A. -/
def sout0_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) : Vec F S1x1024x1 .f32 :=
  VS0_0.read (Elt F) (VS0_0.writes (Elt F) VS0_0.junk (kernelRun0_A c i arg3 harg3 arg4 harg4 arg5 harg5 arg6 harg6 arg7 harg7 arg8 harg8 hc0 hc1 hc2 x0 x1 x2).2.1)

/-- The column-minimum block after a point of case A: its pieces over nothing. -/
def out0_A_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) : Vec F S1x1x8192 .f32 :=
  VO0_4.read (Elt F) (VO0_4.writes (Elt F) VO0_4.junk (kernelRun0_A c i arg3 harg3 arg4 harg4 arg5 harg5 arg6 harg6 arg7 harg7 arg8 harg8 hc0 hc1 hc2 x0 x1 x2).1)

/-- The scratch after a point of case D. -/
def sout0_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) : Vec F S1x1024x1 .f32 :=
  VS0_0.read (Elt F) (VS0_0.writes (Elt F) VS0_0.junk (kernelRun0_D c i arg3 harg3 arg4 harg4 arg5 harg5 arg6 harg6 arg7 harg7 arg8 harg8 hc0 hc1 hc2 x0 x1 x2 xo4).2.1)

/-- The column-minimum block after a point of case D: its one stored column tile over what the point before left. -/
def out0_D_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) : Vec F S1x1x8192 .f32 :=
  arg7.view.read (Elt F) (arg7.view.writes (Elt F) (harg7.unread xo4) (kernelRun0_D c i arg3 harg3 arg4 harg4 arg5 harg5 arg6 harg6 arg7 harg7 arg8 harg8 hc0 hc1 hc2 x0 x1 x2 xo4).1)

/-- The scratch after a point of case B. -/
def sout0_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1024x1 .f32 :=
  VS0_0.read (Elt F) (VS0_0.writes (Elt F) VS0_0.junk (kernelRun0_B c i arg3 harg3 arg4 harg4 arg5 harg5 arg6 harg6 arg7 harg7 arg8 harg8 hc0 hc1 hc2 x0 x1 x2 xo4 xs0).2.1)

/-- The column-minimum block after a point of case B: its one stored column tile over what the point before left. -/
def out0_B_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1x8192 .f32 :=
  arg7.view.read (Elt F) (arg7.view.writes (Elt F) (harg7.unread xo4) (kernelRun0_B c i arg3 harg3 arg4 harg4 arg5 harg5 arg6 harg6 arg7 harg7 arg8 harg8 hc0 hc1 hc2 x0 x1 x2 xo4 xs0).1)

/-- The scratch after a point of case C. -/
def sout0_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1024x1 .f32 :=
  VS0_0.read (Elt F) (VS0_0.writes (Elt F) VS0_0.junk (kernelRun0_C c i arg3 harg3 arg4 harg4 arg5 harg5 arg6 harg6 arg7 harg7 arg8 harg8 hc0 hc1 hc2 x0 x1 x2 xo4 xs0).2.2.1)

/-- The column-minimum block after a point of case C: its one stored column tile over what the point before left. -/
def out0_C_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1x8192 .f32 :=
  arg7.view.read (Elt F) (arg7.view.writes (Elt F) (harg7.unread xo4) (kernelRun0_C c i arg3 harg3 arg4 harg4 arg5 harg5 arg6 harg6 arg7 harg7 arg8 harg8 hc0 hc1 hc2 x0 x1 x2 xo4 xs0).2.1)

/-- The row-minimum output's buffer after a point of case C. -/
def out0_C_3 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1024x1 .f32 :=
  VO0_3.read (Elt F) (VO0_3.writes (Elt F) VO0_3.junk (kernelRun0_C c i arg3 harg3 arg4 harg4 arg5 harg5 arg6 harg6 arg7 harg7 arg8 harg8 hc0 hc1 hc2 x0 x1 x2 xo4 xs0).1)

end Cert.Kernel.Body

end
-- ==== Proof.KbBody.lean ====
/-
  The body obligation of the kernel's one pipeline, and from it the run of the whole program.

  What the kernel keeps between grid points is the row-minimum scratch and the column-minimum output block; their
  contents after each point are defined by recursion on the point, each case of the body's control leaving its
  stored pieces over what the point before left (or over nothing, where a reset covers the buffer). The
  row-minimum output's buffer is written only at a last column tile, whole. The proof data names these contents,
  the body obligation is the four runs, and the launch theorem gives the program's run to the arrays the library
  computes from the proof data.
-/
import proofs.«414502_j84739704750726_3_alg».proof.Proof.KbOuts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents point by point -/

/-- The scratch (first component) and the column-minimum block (second) after the body at position `n`. -/
def outsAt0 (c : Dev nD) : (n : ℕ) → n < cfg0.N → Vec F S1x1024x1 .f32 × Vec F S1x1x8192 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h1 : (n + 1) % 32 = 0 then
      (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr (by omega : (n + 1) % 4 = 0)) ((hcond0_1 ⟨n + 1, hn⟩).mpr h1) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr (by omega : (n + 1) % 4 = 0)) ((hcond0_1 ⟨n + 1, hn⟩).mpr h1) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩))
    else if h0 : (n + 1) % 4 = 0 then
      (sout0_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2)
    else if h2 : (n + 1) % 4 = 3 then
      (sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1,
       out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1)
    else
      (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1)

/-- The scratch after position `n`. -/
def scAtN (c : Dev nD) (n : ℕ) (hn : n < cfg0.N) : Vec F S1x1024x1 .f32 := (outsAt0 m c n hn).1
/-- The column-minimum block after position `n`. -/
def o4AtN (c : Dev nD) (n : ℕ) (hn : n < cfg0.N) : Vec F S1x1x8192 .f32 := (outsAt0 m c n hn).2

theorem outsAt0_A (c : Dev nD) (t : Fin cfg0.N) (h1 : t.val % 32 = 0) :
    outsAt0 m c t.val t.isLt = (sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t)) := by
  obtain ⟨n, hn⟩ := t
  cases n with
  | zero => exact rfl
  | succ n => exact ((dif_pos h1)).trans rfl
theorem scAtN_A (c : Dev nD) (t : Fin cfg0.N) (h1 : t.val % 32 = 0) :
    scAtN m c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t) := by
  show (outsAt0 m c t.val t.isLt).1 = _
  rw [outsAt0_A m c t h1]
theorem o4AtN_A (c : Dev nD) (t : Fin cfg0.N) (h1 : t.val % 32 = 0) :
    o4AtN m c t.val t.isLt = out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t) := by
  show (outsAt0 m c t.val t.isLt).2 = _
  rw [outsAt0_A m c t h1]

theorem outsAt0_D (c : Dev nD) (t : Fin cfg0.N) (h1 : ¬t.val % 32 = 0) (h0 : t.val % 4 = 0) :
    outsAt0 m c t.val t.isLt = (sout0_D c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt)),
      out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt))) := by
  obtain ⟨n, hn⟩ := t
  cases n with
  | zero => exact (by exfalso; (try dsimp only at h1); exact absurd (Nat.zero_mod _) h1)
  | succ n => exact ((dif_neg h1).trans (dif_pos h0)).trans rfl
theorem scAtN_D (c : Dev nD) (t : Fin cfg0.N) (h1 : ¬t.val % 32 = 0) (h0 : t.val % 4 = 0) :
    scAtN m c t.val t.isLt = sout0_D c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt)) := by
  show (outsAt0 m c t.val t.isLt).1 = _
  rw [outsAt0_D m c t h1 h0]
theorem o4AtN_D (c : Dev nD) (t : Fin cfg0.N) (h1 : ¬t.val % 32 = 0) (h0 : t.val % 4 = 0) :
    o4AtN m c t.val t.isLt = out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt)) := by
  show (outsAt0 m c t.val t.isLt).2 = _
  rw [outsAt0_D m c t h1 h0]

theorem outsAt0_C (c : Dev nD) (t : Fin cfg0.N) (h1 : ¬t.val % 32 = 0) (h0 : ¬t.val % 4 = 0) (h2 : t.val % 4 = 3) :
    outsAt0 m c t.val t.isLt = (sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)),
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt))) := by
  obtain ⟨n, hn⟩ := t
  cases n with
  | zero => exact (by exfalso; (try dsimp only at h1); exact absurd (Nat.zero_mod _) h1)
  | succ n => exact ((dif_neg h1).trans ((dif_neg h0).trans (dif_pos h2))).trans rfl
theorem scAtN_C (c : Dev nD) (t : Fin cfg0.N) (h1 : ¬t.val % 32 = 0) (h0 : ¬t.val % 4 = 0) (h2 : t.val % 4 = 3) :
    scAtN m c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).1 = _
  rw [outsAt0_C m c t h1 h0 h2]
theorem o4AtN_C (c : Dev nD) (t : Fin cfg0.N) (h1 : ¬t.val % 32 = 0) (h0 : ¬t.val % 4 = 0) (h2 : t.val % 4 = 3) :
    o4AtN m c t.val t.isLt = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).2 = _
  rw [outsAt0_C m c t h1 h0 h2]

theorem outsAt0_B (c : Dev nD) (t : Fin cfg0.N) (h1 : ¬t.val % 32 = 0) (h0 : ¬t.val % 4 = 0) (h2 : ¬t.val % 4 = 3) :
    outsAt0 m c t.val t.isLt = (sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)),
      out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt))) := by
  obtain ⟨n, hn⟩ := t
  cases n with
  | zero => exact (by exfalso; (try dsimp only at h1); exact absurd (Nat.zero_mod _) h1)
  | succ n => exact ((dif_neg h1).trans ((dif_neg h0).trans (dif_neg h2))).trans rfl
theorem scAtN_B (c : Dev nD) (t : Fin cfg0.N) (h1 : ¬t.val % 32 = 0) (h0 : ¬t.val % 4 = 0) (h2 : ¬t.val % 4 = 3) :
    scAtN m c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).1 = _
  rw [outsAt0_B m c t h1 h0 h2]
theorem o4AtN_B (c : Dev nD) (t : Fin cfg0.N) (h1 : ¬t.val % 32 = 0) (h0 : ¬t.val % 4 = 0) (h2 : ¬t.val % 4 = 3) :
    o4AtN m c t.val t.isLt = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).2 = _
  rw [outsAt0_B m c t h1 h0 h2]

/-- The row-minimum output's buffer after point `t`: at a last column tile what that case stores; elsewhere the
    window is idle and the value is not used (the scratch's contents stand in). -/
def o3At0 (c : Dev nD) (t : Fin cfg0.N) : Vec F S1x1024x1 .f32 :=
  if h2 : t.val % 4 = 3 then
    out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => (by omega : ¬t.val % 4 = 0) ((hcond0_0 t).mp h)) (fun h => (by omega : ¬t.val % 32 = 0) ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt))
  else scAtN m c t.val t.isLt

theorem o3At0_C (c : Dev nD) (t : Fin cfg0.N) (h2 : t.val % 4 = 3) :
    o3At0 m c t = out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => (by omega : ¬t.val % 4 = 0) ((hcond0_0 t).mp h)) (fun h => (by omega : ¬t.val % 32 = 0) ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  unfold o3At0; rw [dif_pos h2]

/-! ## The invariant: the scratch at what the point before left -/

def PhiS (c : Dev nD) : (n : ℕ) → n ≤ cfg0.N → sProp 𝕄
  | 0, _ => Pipeline.ΦA spec0 c
  | n + 1, hn => iprop(iprop(owns (c : Thread nD τ) scM0_0 fullShare (scAtN m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAtN m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scAtN m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o3At0 m c t
    | ⟨4, _⟩ => o4AtN m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = o3At0 m c t := by dsimp only [dats]
theorem after0_4 (c : Dev nD) (t : Fin cfg0.N) : (dats m 0 c).after 4 t = o4AtN m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from the first point of a batch the column-minimum block's buffer holds what the point before left: it is
    written back only at the last point of a batch. -/
theorem before0_4_kept (c : Dev nD) (t : Fin cfg0.N) (h1 : ¬t.val % 32 = 0) (d) :
    (dats m 0 c).before 4 t d = o4AtN m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body leaves in the windows that are never idle. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_4 (c : Dev nD) (t : Fin cfg0.N) : (dats m 0 c).leavesExact 4 t = owns (c : Thread nD τ) (ms0_4 t) fullShare (o4AtN m c t.val t.isLt) := by
  unfold Dat.leavesExact; rw [liveAt0_4 t, after0_4]
/-- At a last column tile the row-minimum output's window is live. -/
theorem leaves0_3_live (c : Dev nD) (t : Fin cfg0.N) (h2 : t.val % 4 = 3) :
    (dats m 0 c).leavesExact 3 t = owns (c : Thread nD τ) (ms0_3 t) fullShare (o3At0 m c t) := by
  have hi : cfg0.idle 3 (grid0.coords t) = false := by
    cases hb : cfg0.idle 3 (grid0.coords t) with
    | false => rfl
    | true => exact absurd h2 ((idleAt0_3 t).mp hb)
  unfold Dat.leavesExact; rw [hi, after0_3]
/-- Elsewhere it is idle and not written back: the body hands the buffer back as it found it. -/
theorem leaves0_3_idle (c : Dev nD) (t : Fin cfg0.N) (h2 : ¬t.val % 4 = 3) :
    (dats m 0 c).leavesExact 3 t = iprop(∃ d, owns (c : Thread nD τ) (ms0_3 t) fullShare ((dats m 0 c).before 3 t d)) :=
  Dat.leavesExact_idle _ 3 t ((idleAt0_3 t).mpr h2) (Bool.eq_false_iff.mpr fun h => h2 ((flush0_3 t).mp h))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 6400000 in
/-- The body at any point. The inputs' memrefs hold their blocks; the point's residues modulo 32 and 4 say which
    case of the control it is in; the column-minimum block's buffer holds what the point before left unless the
    point is the first of a batch, and the scratch is handed over by the invariant; so that case's run applies. The
    scratch goes back into the invariant at this point's contents, each window's buffer is left at the proof data's
    contents, and the row-minimum output's buffer, where its window is idle, as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_4]
  have hN : t.val < 128 := lt_of_lt_of_eq t.isLt (show cfg0.N = 128 from N_0)
  by_cases h1 : t.val % 32 = 0
  · rw [leaves0_3_idle m c t (by omega), scAtN_A m c t h1, o4AtN_A m c t h1]
    unfold sout0_A out0_A_4
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr (by omega : t.val % 4 = 0)) ((hcond0_1 t).mpr h1) (fun h => (by omega : ¬t.val % 4 = 3) ((hcond0_2 t).mp h)) (iblk m c 0 t) (iblk m c 1 t) (iblk m c 2 t)).2.2 Set.univ _ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover0_A_4 c _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr (by omega : t.val % 4 = 0)) ((hcond0_1 t).mpr h1) (fun h => (by omega : ¬t.val % 4 = 3) ((hcond0_2 t).mp h)) (iblk m c 0 t) (iblk m c 1 t) (iblk m c 2 t)).2.2 Set.univ _ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover0_A_4 c _ _ _ _ _ _ _ _ _ _ _ _ _ _ _ _ _ _ _)
  · have hz : t.val ≠ 0 := fun h => h1 (by rw [h])
    by_cases h0 : t.val % 4 = 0
    · rw [leaves0_3_idle m c t (by omega), scAtN_D m c t h1 h0, o4AtN_D m c t h1 h0]
      simp only [before0_4_kept m c t h1]
      unfold sout0_D out0_D_4
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_D c (grid0.coords t) _ _ _ _ _ _ _ _ _ _ _ _ ((hcond0_0 t).mpr h0) (fun h => h1 ((hcond0_1 t).mp h)) (fun h => (by omega : ¬t.val % 4 = 3) ((hcond0_2 t).mp h)) (iblk m c 0 t) (iblk m c 1 t) (iblk m c 2 t) _).2.2 Set.univ _ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_D c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; rfl
    · by_cases h2 : t.val % 4 = 3
      · rw [leaves0_3_live m c t h2, o3At0_C m c t h2, scAtN_C m c t h1 h0 h2, o4AtN_C m c t h1 h0 h2]
        simp only [before0_4_kept m c t h1]
        unfold sout0_C out0_C_4 out0_C_3
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) (fun h => h1 ((hcond0_1 t).mp h)) ((hcond0_2 t).mpr h2) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _)
        unfold owns; iexists _; isplitr
        swap; · iexact H4
        ipureintro; rfl
      · rw [leaves0_3_idle m c t h2, scAtN_B m c t h1 h0 h2, o4AtN_B m c t h1 h0 h2]
        simp only [before0_4_kept m c t h1]
        unfold sout0_B out0_B_4
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _ _).2.2 Set.univ _ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has each array of the pipeline at
    what the library computes from the proof data and every other unscoped buffer at what the host operations after
    the region make of those arrays and the region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KiCases.lean ====
/-
  The kernel body's control, point by point. The grid has 4 × 8 × 4 = 128 points, batch outermost and the
  column tile innermost: point t is batch t / 32, row tile (t % 32) / 4, column tile t % 4. The body resets
  its row-minimum scratch at the first column tile (t % 4 = 0), resets the column-minimum output block at the
  first point of a batch (t % 32 = 0), and copies the scratch to the row-minimum output at the last column
  tile (t % 4 = 3), the only points where that output's window is not idle.
-/
import proofs.«414502_j84739704750726_3_alg».proof.Proof.Gen.KernelIdeal.Frame
import proofs.«414502_j84739704750726_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, decided over the grid -/

/-- "The column tile is the first": the scratch is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "Row tile and column tile are both the first": the column-minimum block is reset. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 32 = 0 :=
  (by decide +kernel : ∀ t : Fin grid0.N, cond0_1 (grid0.coords t) ↔ t.val % 32 = 0)

/-- "The column tile is the last": the scratch is copied out. -/
abbrev cond0_2 (i : grid0.Coords) : Prop := k0_cond3 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_4 : ∀ t : Fin cfg0.N, cfg0.idle 4 (grid0.coords t) = false := by decide +kernel
/-- The row-minimum output's window is idle exactly away from the last column tile. -/
theorem idleAt0_3 : ∀ t : Fin cfg0.N, cfg0.idle 3 (grid0.coords t) = true ↔ ¬ t.val % 4 = 3 :=
  (by decide +kernel : ∀ t : Fin grid0.N, cfg0.idle 3 (grid0.coords t) = true ↔ ¬ t.val % 4 = 3)

/-! ## The staging memrefs the body is called with -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8192 .f32 := win0_4.stage (cfg0.slots t 4)
abbrev hs0_4 (t : Fin cfg0.N) : (ms0_4 t).IsWhole := hstage0_4 ((cfg0.slots t 4).cast nbuf0_4)
/-- The row-minimum scratch: a whole scoped buffer of the kernel's own. -/
abbrev scM0_0 : Memref sig .tc .vmem S1x1024x1 .f32 := Memref.whole cc0_scratch0
/-- Views through which a list of stored pieces is read back as one array. -/
abbrev VS0_0 : View sig .tc .vmem S1x1024x1 .f32 := scM0_0.view
abbrev VO0_3 : View sig .tc .vmem S1x1024x1 .f32 := (Memref.whole cc0_stg3_0 : Memref sig .tc .vmem S1x1024x1 .f32).view
abbrev VO0_4 : View sig .tc .vmem S1x1x8192 .f32 := (Memref.whole cc0_stg4_0 : Memref sig .tc .vmem S1x1x8192 .f32).view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.KiRunA.lean ====
/-
  The kernel body run once, at the first point of a batch (row tile 0, column tile 0): both resets are taken, nothing is copied out. The column-minimum block is stored whole (all +∞) and then its first column tile is lowered by this tile's column minima; the scratch is reset and lowered by this tile's row minima. What either buffer held before is overwritten.
  The run is stated on any whole staging memrefs holding the three input blocks; the lists of stored pieces
  (last store first) that each written buffer ends with are found by running the body, and are the value of this
  definition beside the proof that the body runs to them.
-/
import proofs.«414502_j84739704750726_3_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) :
    (L4 : List (View.Piece (Elt F) S1x1x8192 .f32)) ×' { LS0 : List (View.Piece (Elt F) S1x1024x1 .f32) //
      ∀ (E : Set ℕ) (K : PUnit → sProp 𝕄) (x3 : Vec F S1x1024x1 .f32),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K x3 => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Body

end
-- ==== Proof.KiRunB.lean ====
/-
  The kernel body run once, at a middle column tile: nothing is reset or copied out; the scratch kept from the point before is lowered by this tile's row minima and the column-minimum block's column tile by this tile's column minima.
  The run is stated on any whole staging memrefs holding the three input blocks; the lists of stored pieces
  (last store first) that each written buffer ends with are found by running the body, and are the value of this
  definition beside the proof that the body runs to them.
-/
import proofs.«414502_j84739704750726_3_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) :
    (L4 : List (View.Piece (Elt F) S1x1x8192 .f32)) ×' { LS0 : List (View.Piece (Elt F) S1x1024x1 .f32) //
      ∀ (E : Set ℕ) (K : PUnit → sProp 𝕄) (x3 : Vec F S1x1024x1 .f32),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xo4) L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K x3 => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    iexists _; iexact HS0

end Cert.KernelIdeal.Body

end
-- ==== Proof.KiRunC.lean ====
/-
  The kernel body run once, at the last column tile: as at a middle one, and then the scratch, now the row minima over all four column tiles, is stored whole into the row-minimum output's buffer, whatever that held.
  The run is stated on any whole staging memrefs holding the three input blocks; the lists of stored pieces
  (last store first) that each written buffer ends with are found by running the body, and are the value of this
  definition beside the proof that the body runs to them.
-/
import proofs.«414502_j84739704750726_3_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) :
    (L3 : List (View.Piece (Elt F) S1x1024x1 .f32)) ×' (L4 : List (View.Piece (Elt F) S1x1x8192 .f32)) ×' { LS0 : List (View.Piece (Elt F) S1x1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xo4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xo4) L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexact H4
    iexists _; iexact HS0

end Cert.KernelIdeal.Body

end
-- ==== Proof.KiRunD.lean ====
/-
  The kernel body run once, at the first column tile of a later row tile: the scratch is reset, the column-minimum block is kept from the point before and its first column tile lowered by this tile's column minima.
  The run is stated on any whole staging memrefs holding the three input blocks; the lists of stored pieces
  (last store first) that each written buffer ends with are found by running the body, and are the value of this
  definition beside the proof that the body runs to them.
-/
import proofs.«414502_j84739704750726_3_alg».proof.Proof.KiCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) :
    (L4 : List (View.Piece (Elt F) S1x1x8192 .f32)) ×' { LS0 : List (View.Piece (Elt F) S1x1024x1 .f32) //
      ∀ (E : Set ℕ) (K : PUnit → sProp 𝕄) (x3 : Vec F S1x1024x1 .f32),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xo4) L4) ∗ (∃ f, arg8.view.loc (c : Thread nD τ) ↦[arg8.view.set]{fullShare} arg8.view.writes (Elt F) f LS0)) -∗ K ⟨⟩))
          ⊢ wp frame (wpE (defs₀ (F := F)) Variants.none c none) E (cc0__fused_kernel i arg3 harg3 arg4 harg4 arg5 harg5 arg6 harg6 arg7 harg7 arg8 harg8) K } := by
  refine ⟨?_, ?_, fun E K x3 => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    iexists _; iexact HS0

end Cert.KernelIdeal.Body

end
-- ==== Proof.KiOuts.lean ====
/-
  What each case of the body's control leaves in the buffers it writes: the row-minimum scratch, the
  column-minimum output block and, at a last column tile, the row-minimum output's buffer. Each is the case's
  stored pieces read back as one array: over nothing where a reset or a whole store covers the buffer, over what
  the point before left for the column-minimum block away from its reset.
-/
import proofs.«414502_j84739704750726_3_alg».proof.Proof.KiRunA
import proofs.«414502_j84739704750726_3_alg».proof.Proof.KiRunB
import proofs.«414502_j84739704750726_3_alg».proof.Proof.KiRunC
import proofs.«414502_j84739704750726_3_alg».proof.Proof.KiRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored pieces cover the buffers that are reset or stored whole -/

theorem scover0_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) (y : S1x1024x1.Idx) :
    ∃ pc ∈ (kernelRun0_A c i arg3 harg3 arg4 harg4 arg5 harg5 arg6 harg6 arg7 harg7 arg8 harg8 hc0 hc1 hc2 x0 x1 x2).2.1, y ∈ pc.1.set :=
  View.cover_of_tiledL (kernelRun0_A c i arg3 harg3 arg4 harg4 arg5 harg5 arg6 harg6 arg7 harg7 arg8 harg8 hc0 hc1 hc2 x0 x1 x2).2.1 S1x1024x1.size (by sl_kernel_rfl) y

theorem scover0_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (y : S1x1024x1.Idx) :
    ∃ pc ∈ (kernelRun0_D c i arg3 harg3 arg4 harg4 arg5 harg5 arg6 harg6 arg7 harg7 arg8 harg8 hc0 hc1 hc2 x0 x1 x2 xo4).2.1, y ∈ pc.1.set :=
  View.cover_of_tiledL (kernelRun0_D c i arg3 harg3 arg4 harg4 arg5 harg5 arg6 harg6 arg7 harg7 arg8 harg8 hc0 hc1 hc2 x0 x1 x2 xo4).2.1 S1x1024x1.size (by sl_kernel_rfl) y

theorem scover0_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) (y : S1x1024x1.Idx) :
    ∃ pc ∈ (kernelRun0_B c i arg3 harg3 arg4 harg4 arg5 harg5 arg6 harg6 arg7 harg7 arg8 harg8 hc0 hc1 hc2 x0 x1 x2 xo4 xs0).2.1, y ∈ pc.1.set :=
  View.cover_of_tiledL (kernelRun0_B c i arg3 harg3 arg4 harg4 arg5 harg5 arg6 harg6 arg7 harg7 arg8 harg8 hc0 hc1 hc2 x0 x1 x2 xo4 xs0).2.1 S1x1024x1.size (by sl_kernel_rfl) y

theorem scover0_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) (y : S1x1024x1.Idx) :
    ∃ pc ∈ (kernelRun0_C c i arg3 harg3 arg4 harg4 arg5 harg5 arg6 harg6 arg7 harg7 arg8 harg8 hc0 hc1 hc2 x0 x1 x2 xo4 xs0).2.2.1, y ∈ pc.1.set :=
  View.cover_of_tiledL (kernelRun0_C c i arg3 harg3 arg4 harg4 arg5 harg5 arg6 harg6 arg7 harg7 arg8 harg8 hc0 hc1 hc2 x0 x1 x2 xo4 xs0).2.2.1 S1x1024x1.size (by sl_kernel_rfl) y

theorem cover0_A_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) (y : S1x1x8192.Idx) :
    ∃ pc ∈ (kernelRun0_A c i arg3 harg3 arg4 harg4 arg5 harg5 arg6 harg6 arg7 harg7 arg8 harg8 hc0 hc1 hc2 x0 x1 x2).1, y ∈ pc.1.set :=
  View.cover_of_tiledL (kernelRun0_A c i arg3 harg3 arg4 harg4 arg5 harg5 arg6 harg6 arg7 harg7 arg8 harg8 hc0 hc1 hc2 x0 x1 x2).1 S1x1x8192.size (by sl_kernel_rfl) y

theorem cover0_C_3 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) (y : S1x1024x1.Idx) :
    ∃ pc ∈ (kernelRun0_C c i arg3 harg3 arg4 harg4 arg5 harg5 arg6 harg6 arg7 harg7 arg8 harg8 hc0 hc1 hc2 x0 x1 x2 xo4 xs0).1, y ∈ pc.1.set :=
  View.cover_of_tiledL (kernelRun0_C c i arg3 harg3 arg4 harg4 arg5 harg5 arg6 harg6 arg7 harg7 arg8 harg8 hc0 hc1 hc2 x0 x1 x2 xo4 xs0).1 S1x1024x1.size (by sl_kernel_rfl) y

/-! ## What each case leaves -/

/-- The scratch after a point of case A. -/
def sout0_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) : Vec F S1x1024x1 .f32 :=
  VS0_0.read (Elt F) (VS0_0.writes (Elt F) VS0_0.junk (kernelRun0_A c i arg3 harg3 arg4 harg4 arg5 harg5 arg6 harg6 arg7 harg7 arg8 harg8 hc0 hc1 hc2 x0 x1 x2).2.1)

/-- The column-minimum block after a point of case A: its pieces over nothing. -/
def out0_A_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) : Vec F S1x1x8192 .f32 :=
  VO0_4.read (Elt F) (VO0_4.writes (Elt F) VO0_4.junk (kernelRun0_A c i arg3 harg3 arg4 harg4 arg5 harg5 arg6 harg6 arg7 harg7 arg8 harg8 hc0 hc1 hc2 x0 x1 x2).1)

/-- The scratch after a point of case D. -/
def sout0_D (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) : Vec F S1x1024x1 .f32 :=
  VS0_0.read (Elt F) (VS0_0.writes (Elt F) VS0_0.junk (kernelRun0_D c i arg3 harg3 arg4 harg4 arg5 harg5 arg6 harg6 arg7 harg7 arg8 harg8 hc0 hc1 hc2 x0 x1 x2 xo4).2.1)

/-- The column-minimum block after a point of case D: its one stored column tile over what the point before left. -/
def out0_D_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) : Vec F S1x1x8192 .f32 :=
  arg7.view.read (Elt F) (arg7.view.writes (Elt F) (harg7.unread xo4) (kernelRun0_D c i arg3 harg3 arg4 harg4 arg5 harg5 arg6 harg6 arg7 harg7 arg8 harg8 hc0 hc1 hc2 x0 x1 x2 xo4).1)

/-- The scratch after a point of case B. -/
def sout0_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1024x1 .f32 :=
  VS0_0.read (Elt F) (VS0_0.writes (Elt F) VS0_0.junk (kernelRun0_B c i arg3 harg3 arg4 harg4 arg5 harg5 arg6 harg6 arg7 harg7 arg8 harg8 hc0 hc1 hc2 x0 x1 x2 xo4 xs0).2.1)

/-- The column-minimum block after a point of case B: its one stored column tile over what the point before left. -/
def out0_B_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1x8192 .f32 :=
  arg7.view.read (Elt F) (arg7.view.writes (Elt F) (harg7.unread xo4) (kernelRun0_B c i arg3 harg3 arg4 harg4 arg5 harg5 arg6 harg6 arg7 harg7 arg8 harg8 hc0 hc1 hc2 x0 x1 x2 xo4 xs0).1)

/-- The scratch after a point of case C. -/
def sout0_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1024x1 .f32 :=
  VS0_0.read (Elt F) (VS0_0.writes (Elt F) VS0_0.junk (kernelRun0_C c i arg3 harg3 arg4 harg4 arg5 harg5 arg6 harg6 arg7 harg7 arg8 harg8 hc0 hc1 hc2 x0 x1 x2 xo4 xs0).2.2.1)

/-- The column-minimum block after a point of case C: its one stored column tile over what the point before left. -/
def out0_C_4 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1x8192 .f32 :=
  arg7.view.read (Elt F) (arg7.view.writes (Elt F) (harg7.unread xo4) (kernelRun0_C c i arg3 harg3 arg4 harg4 arg5 harg5 arg6 harg6 arg7 harg7 arg8 harg8 hc0 hc1 hc2 x0 x1 x2 xo4 xs0).2.1)

/-- The row-minimum output's buffer after a point of case C. -/
def out0_C_3 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) : Vec F S1x1024x1 .f32 :=
  VO0_3.read (Elt F) (VO0_3.writes (Elt F) VO0_3.junk (kernelRun0_C c i arg3 harg3 arg4 harg4 arg5 harg5 arg6 harg6 arg7 harg7 arg8 harg8 hc0 hc1 hc2 x0 x1 x2 xo4 xs0).1)

end Cert.KernelIdeal.Body

end
-- ==== Proof.KiBody.lean ====
/-
  The body obligation of the kernel's one pipeline, and from it the run of the whole program.

  What the kernel keeps between grid points is the row-minimum scratch and the column-minimum output block; their
  contents after each point are defined by recursion on the point, each case of the body's control leaving its
  stored pieces over what the point before left (or over nothing, where a reset covers the buffer). The
  row-minimum output's buffer is written only at a last column tile, whole. The proof data names these contents,
  the body obligation is the four runs, and the launch theorem gives the program's run to the arrays the library
  computes from the proof data.
-/
import proofs.«414502_j84739704750726_3_alg».proof.Proof.KiOuts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents point by point -/

/-- The scratch (first component) and the column-minimum block (second) after the body at position `n`. -/
def outsAt0 (c : Dev nD) : (n : ℕ) → n < cfg0.N → Vec F S1x1024x1 .f32 × Vec F S1x1x8192 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h1 : (n + 1) % 32 = 0 then
      (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr (by omega : (n + 1) % 4 = 0)) ((hcond0_1 ⟨n + 1, hn⟩).mpr h1) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr (by omega : (n + 1) % 4 = 0)) ((hcond0_1 ⟨n + 1, hn⟩).mpr h1) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩))
    else if h0 : (n + 1) % 4 = 0 then
      (sout0_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => (by omega : ¬(n + 1) % 4 = 3) ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2)
    else if h2 : (n + 1) % 4 = 3 then
      (sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1,
       out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1)
    else
      (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2 (outsAt0 c n (Nat.lt_of_succ_lt hn)).1)

/-- The scratch after position `n`. -/
def scAtN (c : Dev nD) (n : ℕ) (hn : n < cfg0.N) : Vec F S1x1024x1 .f32 := (outsAt0 m c n hn).1
/-- The column-minimum block after position `n`. -/
def o4AtN (c : Dev nD) (n : ℕ) (hn : n < cfg0.N) : Vec F S1x1x8192 .f32 := (outsAt0 m c n hn).2

theorem outsAt0_A (c : Dev nD) (t : Fin cfg0.N) (h1 : t.val % 32 = 0) :
    outsAt0 m c t.val t.isLt = (sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t)) := by
  obtain ⟨n, hn⟩ := t
  cases n with
  | zero => exact rfl
  | succ n => exact ((dif_pos h1)).trans rfl
theorem scAtN_A (c : Dev nD) (t : Fin cfg0.N) (h1 : t.val % 32 = 0) :
    scAtN m c t.val t.isLt = sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t) := by
  show (outsAt0 m c t.val t.isLt).1 = _
  rw [outsAt0_A m c t h1]
theorem o4AtN_A (c : Dev nD) (t : Fin cfg0.N) (h1 : t.val % 32 = 0) :
    o4AtN m c t.val t.isLt = out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr (by omega : t.val % 4 = 0)) ((hcond0_1 t).mpr h1) (fun h => (by omega : ¬t.val % 4 = 3) ((hcond0_2 t).mp h)) (iblk m c 0 t) (iblk m c 1 t) (iblk m c 2 t) := by
  show (outsAt0 m c t.val t.isLt).2 = _
  rw [outsAt0_A m c t h1]

theorem outsAt0_D (c : Dev nD) (t : Fin cfg0.N) (h1 : ¬t.val % 32 = 0) (h0 : t.val % 4 = 0) :
    outsAt0 m c t.val t.isLt = (sout0_D c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt)),
      out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt))) := by
  obtain ⟨n, hn⟩ := t
  cases n with
  | zero => exact (by exfalso; (try dsimp only at h1); exact absurd (Nat.zero_mod _) h1)
  | succ n => exact ((dif_neg h1).trans (dif_pos h0)).trans rfl
theorem scAtN_D (c : Dev nD) (t : Fin cfg0.N) (h1 : ¬t.val % 32 = 0) (h0 : t.val % 4 = 0) :
    scAtN m c t.val t.isLt = sout0_D c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt)) := by
  show (outsAt0 m c t.val t.isLt).1 = _
  rw [outsAt0_D m c t h1 h0]
theorem o4AtN_D (c : Dev nD) (t : Fin cfg0.N) (h1 : ¬t.val % 32 = 0) (h0 : t.val % 4 = 0) :
    o4AtN m c t.val t.isLt = out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => (by omega : ¬t.val % 4 = 3) ((hcond0_2 t).mp h)) (iblk m c 0 t) (iblk m c 1 t) (iblk m c 2 t) (o4AtN m c (t.val - 1) (Nat.lt_of_le_of_lt (Nat.sub_le _ _) t.isLt)) := by
  show (outsAt0 m c t.val t.isLt).2 = _
  rw [outsAt0_D m c t h1 h0]

theorem outsAt0_C (c : Dev nD) (t : Fin cfg0.N) (h1 : ¬t.val % 32 = 0) (h0 : ¬t.val % 4 = 0) (h2 : t.val % 4 = 3) :
    outsAt0 m c t.val t.isLt = (sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)),
      out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt))) := by
  obtain ⟨n, hn⟩ := t
  cases n with
  | zero => exact (by exfalso; (try dsimp only at h1); exact absurd (Nat.zero_mod _) h1)
  | succ n => exact ((dif_neg h1).trans ((dif_neg h0).trans (dif_pos h2))).trans rfl
theorem scAtN_C (c : Dev nD) (t : Fin cfg0.N) (h1 : ¬t.val % 32 = 0) (h0 : ¬t.val % 4 = 0) (h2 : t.val % 4 = 3) :
    scAtN m c t.val t.isLt = sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).1 = _
  rw [outsAt0_C m c t h1 h0 h2]
theorem o4AtN_C (c : Dev nD) (t : Fin cfg0.N) (h1 : ¬t.val % 32 = 0) (h0 : ¬t.val % 4 = 0) (h2 : t.val % 4 = 3) :
    o4AtN m c t.val t.isLt = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).2 = _
  rw [outsAt0_C m c t h1 h0 h2]

theorem outsAt0_B (c : Dev nD) (t : Fin cfg0.N) (h1 : ¬t.val % 32 = 0) (h0 : ¬t.val % 4 = 0) (h2 : ¬t.val % 4 = 3) :
    outsAt0 m c t.val t.isLt = (sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)),
      out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt))) := by
  obtain ⟨n, hn⟩ := t
  cases n with
  | zero => exact (by exfalso; (try dsimp only at h1); exact absurd (Nat.zero_mod _) h1)
  | succ n => exact ((dif_neg h1).trans ((dif_neg h0).trans (dif_neg h2))).trans rfl
theorem scAtN_B (c : Dev nD) (t : Fin cfg0.N) (h1 : ¬t.val % 32 = 0) (h0 : ¬t.val % 4 = 0) (h2 : ¬t.val % 4 = 3) :
    scAtN m c t.val t.isLt = sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).1 = _
  rw [outsAt0_B m c t h1 h0 h2]
theorem o4AtN_B (c : Dev nD) (t : Fin cfg0.N) (h1 : ¬t.val % 32 = 0) (h0 : ¬t.val % 4 = 0) (h2 : ¬t.val % 4 = 3) :
    o4AtN m c t.val t.isLt = out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  show (outsAt0 m c t.val t.isLt).2 = _
  rw [outsAt0_B m c t h1 h0 h2]

/-- The row-minimum output's buffer after point `t`: at a last column tile what that case stores; elsewhere the
    window is idle and the value is not used (the scratch's contents stand in). -/
def o3At0 (c : Dev nD) (t : Fin cfg0.N) : Vec F S1x1024x1 .f32 :=
  if h2 : t.val % 4 = 3 then
    out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => (by omega : ¬t.val % 4 = 0) ((hcond0_0 t).mp h)) (fun h => (by omega : ¬t.val % 32 = 0) ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt))
  else scAtN m c t.val t.isLt

theorem o3At0_C (c : Dev nD) (t : Fin cfg0.N) (h2 : t.val % 4 = 3) :
    o3At0 m c t = out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => (by omega : ¬t.val % 4 = 0) ((hcond0_0 t).mp h)) (fun h => (by omega : ¬t.val % 32 = 0) ((hcond0_1 t).mp h)) ((hcond0_2 t).mpr h2) (iblk m c 0 t) (iblk m c 1 t) (iblk m c 2 t) (o4AtN m c (t.val - 1) (Nat.lt_of_le_of_lt (Nat.sub_le _ _) t.isLt)) (scAtN m c (t.val - 1) (Nat.lt_of_le_of_lt (Nat.sub_le _ _) t.isLt)) := by
  unfold o3At0; rw [dif_pos h2]

/-! ## The invariant: the scratch at what the point before left -/

def PhiS (c : Dev nD) : (n : ℕ) → n ≤ cfg0.N → sProp 𝕄
  | 0, _ => Pipeline.ΦA spec0 c
  | n + 1, hn => iprop(iprop(owns (c : Thread nD τ) scM0_0 fullShare (scAtN m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAtN m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scAtN m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o3At0 m c t
    | ⟨4, _⟩ => o4AtN m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = o3At0 m c t := by dsimp only [dats]
theorem after0_4 (c : Dev nD) (t : Fin cfg0.N) : (dats m 0 c).after 4 t = o4AtN m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from the first point of a batch the column-minimum block's buffer holds what the point before left: it is
    written back only at the last point of a batch. -/
theorem before0_4_kept (c : Dev nD) (t : Fin cfg0.N) (h1 : ¬t.val % 32 = 0) (d) :
    (dats m 0 c).before 4 t d = o4AtN m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body leaves in the windows that are never idle. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_4 (c : Dev nD) (t : Fin cfg0.N) : (dats m 0 c).leavesExact 4 t = owns (c : Thread nD τ) (ms0_4 t) fullShare (o4AtN m c t.val t.isLt) := by
  unfold Dat.leavesExact; rw [liveAt0_4 t, after0_4]
/-- At a last column tile the row-minimum output's window is live. -/
theorem leaves0_3_live (c : Dev nD) (t : Fin cfg0.N) (h2 : t.val % 4 = 3) :
    (dats m 0 c).leavesExact 3 t = owns (c : Thread nD τ) (ms0_3 t) fullShare (o3At0 m c t) := by
  have hi : cfg0.idle 3 (grid0.coords t) = false := by
    cases hb : cfg0.idle 3 (grid0.coords t) with
    | false => rfl
    | true => exact absurd h2 ((idleAt0_3 t).mp hb)
  unfold Dat.leavesExact; rw [hi, after0_3]
/-- Elsewhere it is idle and not written back: the body hands the buffer back as it found it. -/
theorem leaves0_3_idle (c : Dev nD) (t : Fin cfg0.N) (h2 : ¬t.val % 4 = 3) :
    (dats m 0 c).leavesExact 3 t = iprop(∃ d, owns (c : Thread nD τ) (ms0_3 t) fullShare ((dats m 0 c).before 3 t d)) :=
  Dat.leavesExact_idle _ 3 t ((idleAt0_3 t).mpr h2) (Bool.eq_false_iff.mpr fun h => h2 ((flush0_3 t).mp h))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 6400000 in
/-- The body at any point. The inputs' memrefs hold their blocks; the point's residues modulo 32 and 4 say which
    case of the control it is in; the column-minimum block's buffer holds what the point before left unless the
    point is the first of a batch, and the scratch is handed over by the invariant; so that case's run applies. The
    scratch goes back into the invariant at this point's contents, each window's buffer is left at the proof data's
    contents, and the row-minimum output's buffer, where its window is idle, as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_4]
  have hN : t.val < 128 := lt_of_lt_of_eq t.isLt (show cfg0.N = 128 from N_0)
  by_cases h1 : t.val % 32 = 0
  · rw [leaves0_3_idle m c t (by omega), scAtN_A m c t h1, o4AtN_A m c t h1]
    unfold sout0_A out0_A_4
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr (by omega : t.val % 4 = 0)) ((hcond0_1 t).mpr h1) (fun h => (by omega : ¬t.val % 4 = 3) ((hcond0_2 t).mp h)) (iblk m c 0 t) (iblk m c 1 t) (iblk m c 2 t)).2.2 Set.univ _ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover0_A_4 c _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr (by omega : t.val % 4 = 0)) ((hcond0_1 t).mpr h1) (fun h => (by omega : ¬t.val % 4 = 3) ((hcond0_2 t).mp h)) (iblk m c 0 t) (iblk m c 1 t) (iblk m c 2 t)).2.2 Set.univ _ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (cover0_A_4 c _ _ _ _ _ _ _ _ _ _ _ _ _ _ _ _ _ _ _)
  · have hz : t.val ≠ 0 := fun h => h1 (by rw [h])
    by_cases h0 : t.val % 4 = 0
    · rw [leaves0_3_idle m c t (by omega), scAtN_D m c t h1 h0, o4AtN_D m c t h1 h0]
      simp only [before0_4_kept m c t h1]
      unfold sout0_D out0_D_4
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_D c (grid0.coords t) _ _ _ _ _ _ _ _ _ _ _ _ ((hcond0_0 t).mpr h0) (fun h => h1 ((hcond0_1 t).mp h)) (fun h => (by omega : ¬t.val % 4 = 3) ((hcond0_2 t).mp h)) (iblk m c 0 t) (iblk m c 1 t) (iblk m c 2 t) _).2.2 Set.univ _ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_D c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; rfl
    · by_cases h2 : t.val % 4 = 3
      · rw [leaves0_3_live m c t h2, o3At0_C m c t h2, scAtN_C m c t h1 h0 h2, o4AtN_C m c t h1 h0 h2]
        simp only [before0_4_kept m c t h1]
        unfold sout0_C out0_C_4 out0_C_3
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) (fun h => h1 ((hcond0_1 t).mp h)) ((hcond0_2 t).mpr h2) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _)
        unfold owns; iexists _; isplitr
        swap; · iexact H4
        ipureintro; rfl
      · rw [leaves0_3_idle m c t h2, scAtN_B m c t h1 h0 h2, o4AtN_B m c t h1 h0 h2]
        simp only [before0_4_kept m c t h1]
        unfold sout0_B out0_B_4
        rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _ _).2.2 Set.univ _ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has each array of the pipeline at
    what the library computes from the proof data and every other unscoped buffer at what the host operations after
    the region make of those arrays and the region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its three argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.ChamferSpec.lean ====
/-
  The mathematics both programs compute, stated once over the extended reals.

  For predicted points `pr` and ground-truth points `gt` (four batches of 8192 points in three coordinates) and a
  validity bit per ground-truth point:
  * `dist2 b n m` is the squared distance between predicted point `n` and ground-truth point `m` of batch `b`,
    the sum over the three coordinates of the squared difference;
  * `maskAdd b m` is `0` at a valid ground-truth point and `+∞` at an invalid one, so that adding it removes the
    invalid points from a minimum;
  * `rowMin` is, per predicted point, the least masked squared distance to a ground-truth point, and `colMin`, per
    ground-truth point, the least squared distance to a predicted point;
  * `tail` is the scalar both programs then form from the two arrays of minima and the validity bits: the mean
    over batches of the mean of the row minima, plus the mean over batches of the valid column minima's sum
    divided by the number of valid points (at least one), that sum taken twice.
-/
import Idealize.ShloMosaic.PureOps.Ideal
import Idealize.ShloMosaic.PureOps.Ideal.Laws
import Idealize.ShloMosaic.Lib.ValueIdx

noncomputable section

namespace Cert.ChamferSpec

open Idealize.ShloMosaic Idealize.ShloMosaic.ValueIdx

/-- The points' shape: batch, point, coordinate. -/
abbrev SPts : Shape := ⟨3, ![4, 8192, 3]⟩
/-- One entry per batch and point. -/
abbrev SVal : Shape := ⟨2, ![4, 8192]⟩
/-- One entry per batch. -/
abbrev SBatch : Shape := ⟨1, ![4]⟩
/-- The scalar shape. -/
abbrev SScalar : Shape := ⟨0, ![]⟩

theorem red_val_batch : SVal.ReducesTo [1] SBatch := by decide
theorem red_batch_scalar : SBatch.ReducesTo [0] SScalar := by decide
theorem pos_scalar : 0 < SScalar.numel := by decide
theorem bcast_scalar_batch : SScalar.BroadcastsInDim SBatch (![] : Fin 0 → Fin SBatch.rank) := by decide

/-- The squared distance between predicted point `n` and ground-truth point `m` of batch `b`, the three squared
    coordinate differences added from the left. -/
def dist2 (pr gt : SPts.Idx → EReal) (b : Fin 4) (n m : Fin 8192) : EReal :=
  (pr (ix3 b n (0 : Fin 3)) - gt (ix3 b m (0 : Fin 3))) * (pr (ix3 b n (0 : Fin 3)) - gt (ix3 b m (0 : Fin 3)))
    + (pr (ix3 b n (1 : Fin 3)) - gt (ix3 b m (1 : Fin 3))) * (pr (ix3 b n (1 : Fin 3)) - gt (ix3 b m (1 : Fin 3)))
    + (pr (ix3 b n (2 : Fin 3)) - gt (ix3 b m (2 : Fin 3))) * (pr (ix3 b n (2 : Fin 3)) - gt (ix3 b m (2 : Fin 3)))

/-- `0` at a valid ground-truth point, `+∞` at an invalid one. -/
def maskAdd (valid : SVal.Idx → BitVec 1) (b : Fin 4) (m : Fin 8192) : EReal :=
  if valid (ix2 b m) = 1#1 then 0 else ⊤

/-- Per predicted point, the least masked squared distance to a ground-truth point. -/
def rowMinAt (pr gt : SPts.Idx → EReal) (valid : SVal.Idx → BitVec 1) (b : Fin 4) (n : Fin 8192) : EReal :=
  Finset.univ.inf fun m : Fin 8192 => dist2 pr gt b n m + maskAdd valid b m

/-- Per ground-truth point, the least squared distance to a predicted point. -/
def colMinAt (pr gt : SPts.Idx → EReal) (b : Fin 4) (m : Fin 8192) : EReal :=
  Finset.univ.inf fun n : Fin 8192 => dist2 pr gt b n m

/-- The array of row minima. -/
def rowMin (pr gt : SPts.Idx → EReal) (valid : SVal.Idx → BitVec 1) : SVal.Idx → EReal :=
  fun i => rowMinAt pr gt valid (i 0) (i 1)

/-- The array of column minima. -/
def colMin (pr gt : SPts.Idx → EReal) : SVal.Idx → EReal :=
  fun i => colMinAt pr gt (i 0) (i 1)

/-- The scalar formed from the two arrays of minima and the validity bits. -/
def tail (rowmin colmin : FVec Ideal SVal .f32) (valid : (⟨SVal, .i1⟩ : BufTy).Contents (Elt Ideal)) :
    (⟨SScalar, .f32⟩ : BufTy).Contents (Elt Ideal) :=
  let zero : (⟨SScalar, .f32⟩ : BufTy).Contents (Elt Ideal) := constant (F := Ideal) SScalar .f32 0x00000000#32
  let accB : (⟨SBatch, .f32⟩ : BufTy).Contents (Elt Ideal) :=
    Host.divf (F := Ideal) (Host.reduceAdd (F := Ideal) rowmin zero red_val_batch pos_scalar)
      (broadcastInDim SBatch ![] bcast_scalar_batch (constant (F := Ideal) SScalar .f32 0x46000000#32))
  let validF : (⟨SVal, .f32⟩ : BufTy).Contents (Elt Ideal) := uitofp (F := Ideal) .f32 valid
  let comB : (⟨SBatch, .f32⟩ : BufTy).Contents (Elt Ideal) :=
    Host.divf (F := Ideal) (Host.reduceAdd (F := Ideal) (mulf (F := Ideal) (φ := .f32) colmin validF) zero red_val_batch pos_scalar)
      (maximumf (F := Ideal) (φ := .f32) (Host.reduceAdd (F := Ideal) validF zero red_val_batch pos_scalar)
        (broadcastInDim SBatch ![] bcast_scalar_batch (constant (F := Ideal) SScalar .f32 0x3F800000#32)))
  let lossAcc : (⟨SScalar, .f32⟩ : BufTy).Contents (Elt Ideal) :=
    Host.divf (F := Ideal) (Host.reduceAdd (F := Ideal) accB zero red_batch_scalar pos_scalar) (constant (F := Ideal) SScalar .f32 0x40800000#32)
  let lossCom : (⟨SScalar, .f32⟩ : BufTy).Contents (Elt Ideal) :=
    Host.divf (F := Ideal) (Host.reduceAdd (F := Ideal) comB zero red_batch_scalar pos_scalar) (constant (F := Ideal) SScalar .f32 0x40800000#32)
  addf (F := Ideal) (φ := .f32) (addf (F := Ideal) (φ := .f32) lossAcc lossCom) (addf (F := Ideal) (φ := .f32) lossAcc lossCom)

end Cert.ChamferSpec

end
-- ==== Proof.KiTail.lean ====
/-
  The scalar the kernel program forms after its region.

  After the region the program holds two arrays of minima, one entry per batch and predicted point (stored with a
  trailing unit axis) and one entry per batch and ground-truth point (stored with a middle unit axis). The operations
  that follow drop the unit axes and then form, from the two arrays and the validity bits, the scalar of the shared
  specification: the mean over batches of the mean of the row minima, plus the mean over batches of the valid column
  minima's sum divided by the number of valid points (at least one), that sum taken twice.
-/
import proofs.«414502_j84739704750726_3_alg».proof.Proof.Gen.KernelIdeal.Frame
import proofs.«414502_j84739704750726_3_alg».proof.Proof.ChamferSpec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Tail

open Cert.KernelIdeal Cert.KernelIdeal.Gen Idealize.ShloMosaic Idealize.ShloMosaic.TcCoe Idealize.ShloMosaic.ValueIdx
open Idealize.ShloMosaic.Pipeline (Dat)

/-- Dropping the trailing unit axis of a `[4, 8192, 1]` array: the entry at `(b, n)` is the entry at `(b, n, 0)`,
    both at row-major position `8192 b + n`. -/
theorem dropLast {α : Type} (x : S4x8192x1.Idx → α) (h : S4x8192x1.ShapeCasts S4x8192) :
    shapeCast S4x8192 x h = fun i => x (ix3 (i 0) (i 1) (0 : Fin 1)) := by
  funext i
  refine shapeCast_apply x h i (ix3 (i 0) (i 1) (0 : Fin 1)) ?_
  rw [Shape.rowMajor_val_three, Shape.rowMajor_val_two]
  show ((i 0).val * 8192 + (i 1).val) * 1 + 0 = (i 0).val * 8192 + (i 1).val
  omega

/-- Dropping the middle unit axis of a `[4, 1, 8192]` array: the entry at `(b, m)` is the entry at `(b, 0, m)`,
    both at row-major position `8192 b + m`. -/
theorem dropMid {α : Type} (x : S4x1x8192.Idx → α) (h : S4x1x8192.ShapeCasts S4x8192) :
    shapeCast S4x8192 x h = fun i => x (ix3 (i 0) (0 : Fin 1) (i 1)) := by
  funext i
  refine shapeCast_apply x h i (ix3 (i 0) (0 : Fin 1) (i 1)) ?_
  rw [Shape.rowMajor_val_three, Shape.rowMajor_val_two]
  show ((i 0).val * 1 + 0) * 8192 + (i 1).val = (i 0).val * 8192 + (i 1).val
  omega

/-- The scalar the program ends with is the specification's scalar of the two arrays of minima, read without their
    unit axes, and the validity bits. -/
theorem tail_eq (m : (ℓ : Loc nD τ sig) → Buf (Elt Ideal) ℓ)
    (dats : (p : Fin 1) → (c : Dev nD) → Dat τ (Elt Ideal) Unit ℕ (UR sig nD τ) ℕ (cfgs p) c) (c : Dev nD)
    (R : FVec Ideal S4x8192x1 .f32) (C : FVec Ideal S4x1x8192 .f32)
    (h3 : (dats 0 c).arrAt 3 cfg0.N = R) (h4 : (dats 0 c).arrAt 4 cfg0.N = C) :
    Pipeline.afterTail₀ cfgs dats 0 (V0 m) [hostOps1] c main_v23
      = Cert.ChamferSpec.tail (fun i => R (ix3 (i 0) (i 1) (0 : Fin 1))) (fun i => C (ix3 (i 0) (0 : Fin 1) (i 1)))
          (m ((c : Thread nD τ).loc main_arg2)) := by
  have e3 : Pipeline.withArrays (cfgs 0).spec c (V0 m c) (fun w => (dats 0 c).arrAt w (cfgs 0).N) (Proc.devRef .tc main_v4_0) = R :=
    (Pipeline.withArrays_arr spec0 launch0.win.arr_inj c _ _ 3).trans h3
  have e4 : Pipeline.withArrays (cfgs 0).spec c (V0 m c) (fun w => (dats 0 c).arrAt w (cfgs 0).N) (Proc.devRef .tc main_v4_1) = C :=
    (Pipeline.withArrays_arr spec0 launch0.win.arr_inj c _ _ 4).trans h4
  have e2 : Pipeline.withArrays (cfgs 0).spec c (V0 m c) (fun w => (dats 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v23) = _
  after_results_simp
  rw [e3, e4, e2]
  have hR : (fun i => shapeCast main_v5.ty.shape R Gen.shapeCasts_S4x8192x1_S4x8192 i)
      = fun i => R (ix3 (i 0) (i 1) (0 : Fin 1)) := dropLast R _
  have hC : (fun i => shapeCast main_v9.ty.shape C Gen.shapeCasts_S4x1x8192_S4x8192 i)
      = fun i => C (ix3 (i 0) (0 : Fin 1) (i 1)) := dropMid C _
  rw [hR, hC]
  rfl

end Cert.KernelIdeal.Tail

end
-- ==== Proof.KiUpd.lean ====
/-
  One point's update of the column-minimum block, as a function of the block the point finds: the 2048 columns of
  column tile `j` are lowered by the column minima of the point's tile of squared distances, the other columns are
  kept.
-/
import proofs.«414502_j84739704750726_3_alg».proof.Proof.Gen.KernelIdeal.Skeleton
import Idealize.ShloMosaic.Lib.ValueIdx

noncomputable section

namespace Cert.KernelIdeal.Body

open Cert.KernelIdeal Cert.KernelIdeal.Gen
open Idealize.ShloMosaic Idealize.ShloMosaic.ValueIdx

variable {F : FTy → Type} [FloatOps F]

/-- The block `old` with column tile `j` replaced by the body's stored value there: the minimum of what the tile's
    columns held and the column minima of the squared distances between the row block `x0` and the column block `x1`. -/
def updCol (j : Fin 4) (x0 : Vec F S1x1024x3 .f32) (x1 : Vec F S1x3x2048 .f32) (old : Vec F S1x1x8192 .f32) : Vec F S1x1x8192 .f32 :=
  fun y =>
    if h : 2048 * j.val ≤ (y 2).val ∧ (y 2).val < 2048 * j.val + 2048 then
      k0_pay2 (k0_pay5 x0 x1)
        (fun y' => old (ix3 (0 : Fin 1) (0 : Fin 1) (⟨2048 * j.val + (y' 2).val, by have := j.isLt; have h2 : (y' 2).val < 2048 := (y' 2).isLt; omega⟩ : Fin 8192)))
        (ix3 (0 : Fin 1) (0 : Fin 1) (⟨(y 2).val - 2048 * j.val, by omega⟩ : Fin 2048))
    else old y

end Cert.KernelIdeal.Body

end
-- ==== Proof.KiPieces.lean ====
/-
  What each case of the body's control leaves, read as values. The stored pieces the runs found are read back:
  the row-minimum scratch ends holding the lesser of what it held (or `+∞` after a reset) and the tile's row values;
  the column-minimum block ends holding what the point found there (or `+∞` after a reset) with the columns of the
  point's column tile lowered by the tile's column minima; at a last column tile the row-minimum output's buffer
  holds a copy of the scratch.
-/
import proofs.«414502_j84739704750726_3_alg».proof.Proof.KiOuts
import proofs.«414502_j84739704750726_3_alg».proof.Proof.KiUpd
import Idealize.ShloMosaic.Lib.Pipeline.FrameBody
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets `(0, 0, 0)` are zero on every axis. -/
theorem hz3 : (![0, 0, 0] : Fin 3 → Nat) = fun _ => 0 := funext fun a => by fin_cases a <;> rfl

/-! ## The row-minimum scratch -/

/-- Case A (both resets): the scratch is reset to `+∞` and then lowered by the tile's row values. -/
theorem sout0_A_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) :
    sout0_A c i arg3 harg3 arg4 harg4 arg5 harg5 arg6 harg6 arg7 harg7 arg8 harg8 hc0 hc1 hc2 x0 x1 x2 = k0_pay1 (k0_pay6 x0 x1 x2) (k0_pay3 (F := F)) := by
  unfold sout0_A
  rw [View.read_writes_eq_canon _ _ _ (scover0_A c i arg3 harg3 arg4 harg4 arg5 harg5 arg6 harg6 arg7 harg7 arg8 harg8 hc0 hc1 hc2 x0 x1 x2)]
  unfold kernelRun0_A
  dsimp only
  sl_unfold_words
  rw [View.canon_cons_unit_zero (S := S1x1024x1) hz3, View.readCov_unit_zero (S := S1x1024x1) _ hz3]
  simp only [View.readAt_eq_ld, harg3.read_unread, harg4.read_unread, harg5.read_unread, harg8.read_unread,
    View.ld_unit_zero (S := S1x1024x3) hz3, View.ld_unit_zero (S := S1x3x2048) hz3, View.ld_unit_zero (S := S1x1x2048) hz3,
    View.ld_unit_zero (S := S1x1024x1) hz3]

/-- Case D (the scratch's reset only): the scratch is reset to `+∞` and then lowered by the tile's row values. -/
theorem sout0_D_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) :
    sout0_D c i arg3 harg3 arg4 harg4 arg5 harg5 arg6 harg6 arg7 harg7 arg8 harg8 hc0 hc1 hc2 x0 x1 x2 xo4 = k0_pay1 (k0_pay6 x0 x1 x2) (k0_pay3 (F := F)) := by
  unfold sout0_D
  rw [View.read_writes_eq_canon _ _ _ (scover0_D c i arg3 harg3 arg4 harg4 arg5 harg5 arg6 harg6 arg7 harg7 arg8 harg8 hc0 hc1 hc2 x0 x1 x2 xo4)]
  unfold kernelRun0_D
  dsimp only
  sl_unfold_words
  rw [View.canon_cons_unit_zero (S := S1x1024x1) hz3, View.readCov_unit_zero (S := S1x1024x1) _ hz3]
  simp only [View.readAt_eq_ld, harg3.read_unread, harg4.read_unread, harg5.read_unread, harg8.read_unread,
    View.ld_unit_zero (S := S1x1024x3) hz3, View.ld_unit_zero (S := S1x3x2048) hz3, View.ld_unit_zero (S := S1x1x2048) hz3,
    View.ld_unit_zero (S := S1x1024x1) hz3]

/-- Case B (no reset, no copy): the scratch `xs0` is lowered by the tile's row values. -/
theorem sout0_B_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) :
    sout0_B c i arg3 harg3 arg4 harg4 arg5 harg5 arg6 harg6 arg7 harg7 arg8 harg8 hc0 hc1 hc2 x0 x1 x2 xo4 xs0 = k0_pay1 (k0_pay6 x0 x1 x2) xs0 := by
  unfold sout0_B
  rw [View.read_writes_eq_canon _ _ _ (scover0_B c i arg3 harg3 arg4 harg4 arg5 harg5 arg6 harg6 arg7 harg7 arg8 harg8 hc0 hc1 hc2 x0 x1 x2 xo4 xs0)]
  unfold kernelRun0_B
  dsimp only
  sl_unfold_words
  rw [View.canon_unit_zero (S := S1x1024x1) hz3]
  simp only [View.readAt_eq_ld, harg3.read_unread, harg4.read_unread, harg5.read_unread, harg8.read_unread,
    View.ld_unit_zero (S := S1x1024x3) hz3, View.ld_unit_zero (S := S1x3x2048) hz3, View.ld_unit_zero (S := S1x1x2048) hz3,
    View.ld_unit_zero (S := S1x1024x1) hz3]

/-- Case C (a last column tile): the scratch `xs0` is lowered by the tile's row values. -/
theorem sout0_C_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) :
    sout0_C c i arg3 harg3 arg4 harg4 arg5 harg5 arg6 harg6 arg7 harg7 arg8 harg8 hc0 hc1 hc2 x0 x1 x2 xo4 xs0 = k0_pay1 (k0_pay6 x0 x1 x2) xs0 := by
  unfold sout0_C
  rw [View.read_writes_eq_canon _ _ _ (scover0_C c i arg3 harg3 arg4 harg4 arg5 harg5 arg6 harg6 arg7 harg7 arg8 harg8 hc0 hc1 hc2 x0 x1 x2 xo4 xs0)]
  unfold kernelRun0_C
  dsimp only
  sl_unfold_words
  rw [View.canon_unit_zero (S := S1x1024x1) hz3]
  simp only [View.readAt_eq_ld, harg3.read_unread, harg4.read_unread, harg5.read_unread, harg8.read_unread,
    View.ld_unit_zero (S := S1x1024x3) hz3, View.ld_unit_zero (S := S1x3x2048) hz3, View.ld_unit_zero (S := S1x1x2048) hz3,
    View.ld_unit_zero (S := S1x1024x1) hz3]

/-! ## The row-minimum output's buffer at a last column tile -/

/-- Case C copies the scratch out whole after lowering it: the output's buffer holds the lowered scratch. -/
theorem out0_C_3_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) :
    out0_C_3 c i arg3 harg3 arg4 harg4 arg5 harg5 arg6 harg6 arg7 harg7 arg8 harg8 hc0 hc1 hc2 x0 x1 x2 xo4 xs0 = k0_pay1 (k0_pay6 x0 x1 x2) xs0 := by
  unfold out0_C_3
  rw [View.read_writes_eq_canon _ _ _ (cover0_C_3 c i arg3 harg3 arg4 harg4 arg5 harg5 arg6 harg6 arg7 harg7 arg8 harg8 hc0 hc1 hc2 x0 x1 x2 xo4 xs0)]
  unfold kernelRun0_C
  dsimp only
  sl_unfold_words
  rw [View.canon_unit_zero (S := S1x1024x1) hz3, View.readCov_unit_zero (S := S1x1024x1) _ hz3]
  simp only [View.readAt_eq_ld, harg3.read_unread, harg4.read_unread, harg5.read_unread, harg8.read_unread,
    View.ld_unit_zero (S := S1x1024x3) hz3, View.ld_unit_zero (S := S1x3x2048) hz3, View.ld_unit_zero (S := S1x1x2048) hz3,
    View.ld_unit_zero (S := S1x1024x1) hz3]

end Cert.KernelIdeal.Body

end
-- ==== Proof.KiPieces2.lean ====
/-
  What each case of the body's control leaves in the column-minimum block, read as a value: the block the point
  finds (all `+∞` at the first point of a batch, where the block is reset first) with the 2048 columns of the point's
  column tile lowered by the column minima of the point's tile of squared distances, every other column kept.
-/
import proofs.«414502_j84739704750726_3_alg».proof.Proof.KiOuts
import proofs.«414502_j84739704750726_3_alg».proof.Proof.KiUpd
import Idealize.ShloMosaic.Lib.Pipeline.FrameBody
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets `(0, 0, 0)` are zero on every axis. -/
theorem hzero3 : (![0, 0, 0] : Fin 3 → Nat) = fun _ => 0 := funext fun a => by fin_cases a <;> rfl

/-! ## One column tile stored over a block -/

/-- One column tile stored last over a block that reads `old`: read back, the columns of column tile `j` hold the
    stored value — the lesser of what they held and the column minima of the tile of squared distances —, every
    other column what the block held. The stored value's own argument is the block's columns of that tile. -/
theorem read_colTile {sp : Space} (v : View sig .tc sp S1x1x8192 .f32) (f : v.ty.Contents (Elt F))
    (L : List (View.Piece (Elt F) S1x1x8192 .f32)) (old : Vec F S1x1x8192 .f32)
    (hf : v.read (Elt F) (v.writes (Elt F) f L) = old)
    (off : Fin 3 → Nat) (inb : ∀ a, off a + S1x1x2048.size a ≤ S1x1x8192.size a)
    (j : Fin 4) (heq : off = ![0, 0, 2048 * j.val]) (x0 : Vec F S1x1024x3 .f32) (x1 : Vec F S1x3x2048 .f32) :
    v.read (Elt F) (v.writes (Elt F) f
        ((⟨Rect.unit off S1x1x2048.size inb, k0_pay2 (k0_pay5 x0 x1) (View.ld old (Rect.unit off S1x1x2048.size inb))⟩ :
          View.Piece (Elt F) S1x1x8192 .f32) :: L))
      = updCol j x0 x1 old := by
  subst heq
  funext y
  unfold updCol
  have hy0 : (y 0).val < 1 := (y 0).isLt
  have hy1 : (y 1).val < 1 := (y 1).isLt
  by_cases hc : 2048 * j.val ≤ (y 2).val ∧ (y 2).val < 2048 * j.val + 2048
  · rw [dif_pos hc]
    refine (View.read_writes_cons_unit_of_mem v f inb _ L y
      (ix3 (0 : Fin 1) (0 : Fin 1) (⟨(y 2).val - 2048 * j.val, by omega⟩ : Fin 2048)) rfl (fun a => ?_)).trans ?_
    · match a with
      | ⟨0, _⟩ => show (y 0).val = 0 + 0; omega
      | ⟨1, _⟩ => show (y 1).val = 0 + 0; omega
      | ⟨2, _⟩ => show (y 2).val = 2048 * j.val + ((y 2).val - 2048 * j.val); omega
    · refine congrArg (fun g => k0_pay2 (k0_pay5 x0 x1) g _) (funext fun y' => congrArg old (funext fun a => Fin.ext ?_))
      have hy0' : (y' 0).val < 1 := (y' 0).isLt
      have hy1' : (y' 1).val < 1 := (y' 1).isLt
      match a with
      | ⟨0, _⟩ => show 0 + 1 * (y' 0).val = 0; omega
      | ⟨1, _⟩ => show 0 + 1 * (y' 1).val = 0; omega
      | ⟨2, _⟩ => show 2048 * j.val + 1 * (y' 2).val = 2048 * j.val + (y' 2).val; omega
  · rw [dif_neg hc]
    refine (View.read_writes_cons_unit_of_not_mem v f inb _ L y rfl (2 : Fin 3) ?_).trans (congrFun hf y)
    show (y 2).val < 2048 * j.val ∨ 2048 * j.val + 2048 ≤ (y 2).val
    omega

/-! ## The four cases -/

/-- Case A (first point of a batch): the block is reset to `+∞`, then column tile `j` is lowered. The stored value's
    own argument is the tile's columns of the reset block, read back. -/
theorem out0_A_4_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : cond0_1 i) (hc2 : ¬cond0_2 i)
    (x0 : Vec F S1x1024x3 .f32) (x1 : Vec F S1x3x2048 .f32) (x2 : Vec F S1x1x2048 .f32) (j : Fin 4) (hj : (i 2).val = j.val) :
    out0_A_4 c i arg3 harg3 arg4 harg4 arg5 harg5 arg6 harg6 arg7 harg7 arg8 harg8 hc0 hc1 hc2 x0 x1 x2 = updCol j x0 x1 (k0_pay4 (F := F)) := by
  unfold out0_A_4
  unfold kernelRun0_A
  dsimp only
  sl_unfold_words
  simp only [View.readAt_eq_ld, View.read_writes_junk_eq_canon arg7.view, View.canon_unit_zero (S := S1x1x8192) hzero3,
    harg3.read_unread, harg4.read_unread,
    View.ld_unit_zero (S := S1x1024x3) hzero3, View.ld_unit_zero (S := S1x3x2048) hzero3]
  have hf : VO0_4.read (Elt F) (VO0_4.writes (Elt F) VO0_4.junk [(⟨Rect.unit ![0, 0, 0] S1x1x8192.size inb_S1x1x8192_S1x1x8192_0_0_0, k0_pay4 (F := F)⟩ : View.Piece (Elt F) S1x1x8192 .f32)]) = k0_pay4 (F := F) :=
    (View.read_writes_junk_eq_canon VO0_4 _).trans (View.canon_unit_zero (S := S1x1x8192) hzero3 _ _)
  have heq : k0_off1 i = ![0, 0, 2048 * j.val] := (k0_off1_eq i).trans (by rw [hj])
  exact read_colTile VO0_4 VO0_4.junk [(⟨Rect.unit ![0, 0, 0] S1x1x8192.size inb_S1x1x8192_S1x1x8192_0_0_0, k0_pay4 (F := F)⟩ : View.Piece (Elt F) S1x1x8192 .f32)] (k0_pay4 (F := F)) hf (k0_off1 i) (k0_off1_inb i) j heq x0 x1

/-- Case D: column tile `j` of the block the point finds is lowered. -/
theorem out0_D_4_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (j : Fin 4) (hj : (i 2).val = j.val) :
    out0_D_4 c i arg3 harg3 arg4 harg4 arg5 harg5 arg6 harg6 arg7 harg7 arg8 harg8 hc0 hc1 hc2 x0 x1 x2 xo4 = updCol j x0 x1 xo4 := by
  unfold out0_D_4
  unfold kernelRun0_D
  dsimp only
  sl_unfold_words
  simp only [View.readAt_eq_ld, harg3.read_unread, harg4.read_unread, harg7.read_unread,
    View.ld_unit_zero (S := S1x1024x3) hzero3, View.ld_unit_zero (S := S1x3x2048) hzero3]
  have heq : k0_off1 i = ![0, 0, 2048 * j.val] := (k0_off1_eq i).trans (by rw [hj])
  exact read_colTile arg7.view (harg7.unread xo4) [] xo4 (harg7.read_unread xo4) (k0_off1 i) (k0_off1_inb i) j heq x0 x1

/-- Case B: column tile `j` of the block the point finds is lowered. -/
theorem out0_B_4_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : ¬cond0_2 i)
    (x0 : Vec F S1x1024x3 .f32) (x1 : Vec F S1x3x2048 .f32) (x2 : Vec F S1x1x2048 .f32) (xo4 : Vec F S1x1x8192 .f32) (xs0 : Vec F S1x1024x1 .f32) (j : Fin 4) (hj : (i 2).val = j.val) :
    out0_B_4 c i arg3 harg3 arg4 harg4 arg5 harg5 arg6 harg6 arg7 harg7 arg8 harg8 hc0 hc1 hc2 x0 x1 x2 xo4 xs0 = updCol j x0 x1 xo4 := by
  unfold out0_B_4
  unfold kernelRun0_B
  dsimp only
  sl_unfold_words
  simp only [View.readAt_eq_ld, harg3.read_unread, harg4.read_unread, harg7.read_unread,
    View.ld_unit_zero (S := S1x1024x3) hzero3, View.ld_unit_zero (S := S1x3x2048) hzero3]
  have heq : k0_off1 i = ![0, 0, 2048 * j.val] := (k0_off1_eq i).trans (by rw [hj])
  exact read_colTile arg7.view (harg7.unread xo4) [] xo4 (harg7.read_unread xo4) (k0_off1 i) (k0_off1_inb i) j heq x0 x1

/-- Case C: column tile `j` of the block the point finds is lowered. -/
theorem out0_C_4_eq (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x1 .f32) (harg6 : arg6.IsWhole) (arg7 : Memref sig .tc .vmem S1x1x8192 .f32) (harg7 : arg7.IsWhole) (arg8 : Memref sig .tc .vmem S1x1024x1 .f32) (harg8 : arg8.IsWhole) (hc0 : ¬cond0_0 i) (hc1 : ¬cond0_1 i) (hc2 : cond0_2 i)
    (x0 : Vec F S1x1024x3 .f32) (x1 : Vec F S1x3x2048 .f32) (x2 : Vec F S1x1x2048 .f32) (xo4 : Vec F S1x1x8192 .f32) (xs0 : Vec F S1x1024x1 .f32) (j : Fin 4) (hj : (i 2).val = j.val) :
    out0_C_4 c i arg3 harg3 arg4 harg4 arg5 harg5 arg6 harg6 arg7 harg7 arg8 harg8 hc0 hc1 hc2 x0 x1 x2 xo4 xs0 = updCol j x0 x1 xo4 := by
  unfold out0_C_4
  unfold kernelRun0_C
  dsimp only
  sl_unfold_words
  simp only [View.readAt_eq_ld, harg3.read_unread, harg4.read_unread, harg7.read_unread,
    View.ld_unit_zero (S := S1x1024x3) hzero3, View.ld_unit_zero (S := S1x3x2048) hzero3]
  have heq : k0_off1 i = ![0, 0, 2048 * j.val] := (k0_off1_eq i).trans (by rw [hj])
  exact read_colTile arg7.view (harg7.unread xo4) [] xo4 (harg7.read_unread xo4) (k0_off1 i) (k0_off1_inb i) j heq x0 x1

end Cert.KernelIdeal.Body

end
-- ==== Proof.KiBlocks.lean ====
/-
  What the three input blocks of the kernel hold at a grid point, as entries of the program's argument arrays.

  The grid has 4 x 8 x 4 = 128 points; point `t` is batch `t / 32`, row tile `(t % 32) / 4`, column tile `t % 4`.
  * The predicted points' block is rows `1024 i .. 1024 i + 1023` of batch `b` of the predicted points.
  * The ground-truth block is columns `2048 j .. 2048 j + 2047` of batch `b` of the TRANSPOSED ground-truth points:
    entry `(d, l)` of the block is coordinate `d` of ground-truth point `2048 j + l`.
  * The mask block is columns `2048 j .. 2048 j + 2047` of batch `b` of the additive validity mask, `0` at a valid
    ground-truth point and `+∞` at an invalid one.
-/
import proofs.«414502_j84739704750726_3_alg».proof.Proof.Gen.KernelIdeal.Frame
import proofs.«414502_j84739704750726_3_alg».proof.Proof.ChamferSpec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- The batch of a grid point. -/
def pb (t : Fin cfg0.N) : Fin 4 := ⟨t.val / 32, by have := t.isLt; have : cfg0.N = 128 := N_0; omega⟩
/-- The row tile of a grid point. -/
def pi (t : Fin cfg0.N) : Fin 8 := ⟨t.val % 32 / 4, by omega⟩
/-- The column tile of a grid point. -/
def pj (t : Fin cfg0.N) : Fin 4 := ⟨t.val % 4, by omega⟩

/-- The predicted points' block at point `t`. -/
abbrev prBlk (t : Fin cfg0.N) : Vec Ideal S1x1024x3 .f32 := iblk (F := Ideal) m c 0 t
/-- The transposed ground-truth points' block at point `t`. -/
abbrev gtBlk (t : Fin cfg0.N) : Vec Ideal S1x3x2048 .f32 := iblk (F := Ideal) m c 1 t
/-- The additive mask's block at point `t`. -/
abbrev mkBlk (t : Fin cfg0.N) : Vec Ideal S1x1x2048 .f32 := iblk (F := Ideal) m c 2 t

/-- The block index of each input window at a grid point, on each axis: the batch on the leading axis, the row tile on
    the predicted points' row axis, the column tile on the other two windows' column axis, zero elsewhere. -/
theorem idx_facts : ∀ t : Fin cfg0.N,
    win0_0.index t (0 : Fin 3) = t.val / 32 ∧ win0_0.index t (1 : Fin 3) = t.val % 32 / 4 ∧ win0_0.index t (2 : Fin 3) = 0
    ∧ win0_1.index t (0 : Fin 3) = t.val / 32 ∧ win0_1.index t (1 : Fin 3) = 0 ∧ win0_1.index t (2 : Fin 3) = t.val % 4
    ∧ win0_2.index t (0 : Fin 3) = t.val / 32 ∧ win0_2.index t (1 : Fin 3) = 0 ∧ win0_2.index t (2 : Fin 3) = t.val % 4 :=
  (by decide +kernel : ∀ t : Fin grid0.N, _)

/-- Entry `(r, d)` of the predicted points' block is coordinate `d` of predicted point `1024 i + r` of batch `b`. -/
theorem prBlk_apply (t : Fin cfg0.N) (r : Fin 1024) (d : Fin 3) :
    prBlk m c t (ix3 (0 : Fin 1) r d) = m ((c : Thread nD τ).loc main_arg0) (ix3 (pb t) (⟨1024 * (pi t).val + r.val, by have := (pi t).isLt; omega⟩ : Fin 8192) d) := by
  obtain ⟨e0, e1, e2, -⟩ := idx_facts t
  unfold prBlk iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val / 32; omega
  | ⟨1, _⟩ => show win0_0.index t (1 : Fin 3) * 1024 + 1 * r.val = 1024 * (t.val % 32 / 4) + r.val; omega
  | ⟨2, _⟩ => show win0_0.index t (2 : Fin 3) * 3 + 1 * d.val = d.val; omega

/-- The second window's array when the region is entered: the ground-truth points with the point and coordinate axes
    exchanged. -/
theorem V_main_v0 : (V m c main_v0 : S4x3x8192.Idx → Elt Ideal .f32)
    = transpose S4x3x8192 [0, 2, 1] (m ((c : Thread nD τ).loc main_arg1) : S4x8192x3.Idx → Elt Ideal .f32) transposes_S4x8192x3_S4x3x8192_0_2_1 := by
  dsimp only [Gen.V, Gen.V0]
  simp only [Gen.hostOps0, Gen.hostOps0_1, Gen.hostOps0_2, List.flatten_cons, List.flatten_nil, List.append_nil,
    List.cons_append, List.nil_append]
  after_results

/-- Entry `(d, l)` of the ground-truth block is coordinate `d` of ground-truth point `2048 j + l` of batch `b`. -/
theorem gtBlk_apply (t : Fin cfg0.N) (d : Fin 3) (l : Fin 2048) :
    gtBlk m c t (ix3 (0 : Fin 1) d l) = m ((c : Thread nD τ).loc main_arg1) (ix3 (pb t) (⟨2048 * (pj t).val + l.val, by have := (pj t).isLt; omega⟩ : Fin 8192) d) := by
  obtain ⟨-, -, -, e0, e1, e2, -⟩ := idx_facts t
  unfold gtBlk iblk
  rw [View.read_apply]
  show V m c main_v0 _ = m ((c : Thread nD τ).loc main_arg1) _
  refine (congrFun (V_main_v0 m c) _).trans ?_
  refine transpose_apply [0, 2, 1] _ transposes_S4x8192x3_S4x3x8192_0_2_1 _ _ fun b => ?_
  match b with
  | ⟨0, _⟩ => show t.val / 32 = win0_1.index t (0 : Fin 3) * 1 + 1 * 0; omega
  | ⟨1, _⟩ => show d.val = win0_1.index t (1 : Fin 3) * 3 + 1 * d.val; omega
  | ⟨2, _⟩ => show 2048 * (t.val % 4) + l.val = win0_1.index t (2 : Fin 3) * 2048 + 1 * l.val; omega

/-- The third window's array when the region is entered: per batch and ground-truth point, zero where the validity bit
    is set and the encoding of `+∞` where it is not. -/
theorem V_main_v3 : (V m c main_v3 : S4x1x8192.Idx → Elt Ideal .f32)
    = select (broadcastInDim S4x1x8192 ![0, 2] bcast_S4x8192_S4x1x8192_0_2 (m ((c : Thread nD τ).loc main_arg2) : S4x8192.Idx → BitVec 1))
        (broadcastInDim S4x1x8192 ![] bcast_S_S4x1x8192 (constant (F := Ideal) S_ .f32 0x00000000#32))
        (broadcastInDim S4x1x8192 ![] bcast_S_S4x1x8192 (constant (F := Ideal) S_ .f32 0x7F800000#32)) := by
  dsimp only [Gen.V, Gen.V0]
  simp only [Gen.hostOps0, Gen.hostOps0_1, Gen.hostOps0_2, List.flatten_cons, List.flatten_nil, List.append_nil,
    List.cons_append, List.nil_append]
  after_results
  rfl

/-- The word `0x7F800000` encodes `+∞`. -/
theorem ofBits_inf_f32 : Ideal.ofBits .f32 0x7F800000#32 = (⊤ : EReal) := by simp [Ideal.ofBits, Ideal.ieee]

/-- That array at batch `b` and ground-truth point `n` is the additive mask there. -/
theorem mask_apply (valid : S4x8192.Idx → BitVec 1) (b : Fin 4) (n : Fin 8192) :
    select (broadcastInDim S4x1x8192 ![0, 2] bcast_S4x8192_S4x1x8192_0_2 valid)
        (broadcastInDim S4x1x8192 ![] bcast_S_S4x1x8192 (constant (F := Ideal) S_ .f32 0x00000000#32))
        (broadcastInDim S4x1x8192 ![] bcast_S_S4x1x8192 (constant (F := Ideal) S_ .f32 0x7F800000#32))
        (ix3 b (0 : Fin 1) n)
      = Cert.ChamferSpec.maskAdd valid b n := by
  rw [select_apply,
    broadcastInDim_apply ![0, 2] bcast_S4x8192_S4x1x8192_0_2 valid (ix3 b (0 : Fin 1) n) (ix2 b n)
      (fun a => match a with | ⟨0, _⟩ => rfl | ⟨1, _⟩ => rfl),
    broadcastInDim_apply ![] bcast_S_S4x1x8192 (constant (F := Ideal) S_ .f32 0x00000000#32) (ix3 b (0 : Fin 1) n) ix0
      (fun a => a.elim0),
    broadcastInDim_apply ![] bcast_S_S4x1x8192 (constant (F := Ideal) S_ .f32 0x7F800000#32) (ix3 b (0 : Fin 1) n) ix0
      (fun a => a.elim0),
    constant_apply, constant_apply, Ideal.ofBits_zero_f32, ofBits_inf_f32]
  rfl

/-- Entry `l` of the mask block is the additive mask of ground-truth point `2048 j + l` of batch `b`. -/
theorem mkBlk_apply (t : Fin cfg0.N) (l : Fin 2048) :
    mkBlk m c t (ix3 (0 : Fin 1) (0 : Fin 1) l) = Cert.ChamferSpec.maskAdd (m ((c : Thread nD τ).loc main_arg2)) (pb t) (⟨2048 * (pj t).val + l.val, by have := (pj t).isLt; omega⟩ : Fin 8192) := by
  obtain ⟨-, -, -, -, -, -, e0, e1, e2⟩ := idx_facts t
  unfold mkBlk iblk
  rw [View.read_apply]
  show V m c main_v3 _ = _
  refine (congrFun (V_main_v3 m c) _).trans ?_
  refine (congrArg _ ?_).trans (mask_apply (m ((c : Thread nD τ).loc main_arg2)) (pb t) ⟨2048 * (pj t).val + l.val, by have := (pj t).isLt; omega⟩)
  funext a
  apply Fin.ext
  match a with
  | ⟨0, _⟩ => show win0_2.index t (0 : Fin 3) * 1 + 1 * 0 = t.val / 32; omega
  | ⟨1, _⟩ => show win0_2.index t (1 : Fin 3) * 1 + 1 * 0 = 0; omega
  | ⟨2, _⟩ => show win0_2.index t (2 : Fin 3) * 2048 + 1 * l.val = 2048 * (t.val % 4) + l.val; omega

end Cert.KernelIdeal.Blocks

end
-- ==== Proof.KiPayloads.lean ====
/-
  The kernel body's arithmetic, read at one index over the extended reals.

  Each value the body stores is a short chain of layout operations (shape casts that add or drop unit axes, unit-width
  slices of the coordinate axis, broadcasts of a column or of a row over the whole tile), of pointwise arithmetic
  (difference, product, sum, minimum) and of one minimum along an axis of the tile. Read at an index written by its
  coordinates:
  * the tile of squared distances at `(r, l)` is the sum over the three coordinates of the squared difference between
    predicted point `r` and ground-truth point `l` of the block;
  * the row value at `r` is the least, over the lanes `l`, of that squared distance plus the mask term of lane `l`;
  * the running row minimum at `r` is the lesser of the stored one and the new row value;
  * the running column minimum at `l` is the lesser of the stored one and the least squared distance down column `l`;
  * the two initial values are `+∞` everywhere.
-/
import proofs.«414502_j84739704750726_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx

/-! ## `+∞`, and a minimum along one axis of a tile -/

/-- The word `0x7F800000` is `+∞`. -/
theorem ofBits_posInf : Ideal.ofBits .f32 0x7F800000#32 = (⊤ : EReal) := by simp [Ideal.ofBits, Ideal.ieee]

/-- Folding `min` from `+∞` over all of `Fin n` is the infimum over `Fin n`. -/
theorem fold_min_top {n : Nat} (f : Fin n → EReal) : Finset.univ.fold min (⊤ : EReal) f = Finset.univ.inf f := rfl

/-- A minimum along the lanes of an `[a, b]` tile, from `+∞`: at row `r` the least entry of the row. -/
theorem laneMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction .minimumf [1] ⟨1, ![a]⟩ v 0x7F800000#32 h hφ hacc (ix1 r)
      = Finset.univ.inf fun l : Fin b => v (ix2 r l) := by
  rw [multiReduction_minimumf_eq_fold]
  refine (h.fold_filter_drop_single _ _ v (ix1 r)).trans ?_
  have hl : ∀ l : Fin b, h.lift (ix1 r) l = ix2 r l := fun l => funext fun c => Fin.ext (by
    match c with
    | ⟨0, _⟩ => rfl
    | ⟨1, _⟩ => rfl)
  have hf : (v ∘ h.lift (ix1 r)) = fun l : Fin b => v (ix2 r l) := funext fun l => congrArg v (hl l)
  rw [hf]
  show Finset.univ.fold min (Ideal.ofBits .f32 0x7F800000#32) (fun l : Fin b => v (ix2 r l)) = _
  rw [ofBits_posInf]
  rfl

/-- A minimum down the rows of an `[a, b]` tile, from `+∞`: at lane `l` the least entry of the column. -/
theorem rowsMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (l : Fin b) :
    multiReduction .minimumf [0] ⟨1, ![b]⟩ v 0x7F800000#32 h hφ hacc (ix1 l)
      = Finset.univ.inf fun r : Fin a => v (ix2 r l) := by
  rw [multiReduction_minimumf_eq_fold]
  refine (h.fold_filter_drop_single _ _ v (ix1 l)).trans ?_
  have hl : ∀ r : Fin a, h.lift (ix1 l) r = ix2 r l := fun r => funext fun c => Fin.ext (by
    match c with
    | ⟨0, _⟩ => rfl
    | ⟨1, _⟩ => rfl)
  have hf : (v ∘ h.lift (ix1 l)) = fun r : Fin a => v (ix2 r l) := funext fun r => congrArg v (hl r)
  rw [hf]
  show Finset.univ.fold min (Ideal.ofBits .f32 0x7F800000#32) (fun r : Fin a => v (ix2 r l)) = _
  rw [ofBits_posInf]
  rfl

/-! ## Layout operations at an index given by coordinates: the column forms -/

section Layout
variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, w, i)`, the operand at `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Coordinate `k` of the predicted points' block, as a column broadcast over the tile: at `(r, l)` it is
    the block at `(0, r, k)`. -/
theorem col_apply (x0 : S1x1024x3.Idx → α) (o : Nat) (hc : S1x1024x3.ShapeCasts S1024x3)
    (hs : S1024x3.Slices ![0, o] S1024x1) (hb : S1024x1.Broadcasts S1024x2048) (k : Fin 3) (hk : k.val = o)
    (r : Fin 1024) (l : Fin 2048) :
    broadcastTo S1024x2048 (extractStridedSlice S1024x1 ![0, o] (shapeCast S1024x3 x0 hc) hs) hb (ix2 r l)
      = x0 (ix3 (0 : Fin 1) r k) :=
  (broadcastTo_a1_ab_apply _ hb r l).trans
    ((slice2_axis1_apply o _ hs r (0 : Fin 1) k hk).trans (shapeCast_1ab_ab_apply x0 hc r k))

/-- Coordinate `k` of the ground-truth points' block, as a row broadcast over the tile: at `(r, l)` it is
    the block at `(0, k, l)`. -/
theorem row_apply (x1 : S1x3x2048.Idx → α) (o : Nat) (hc : S1x3x2048.ShapeCasts S3x2048)
    (hs : S3x2048.Slices ![o, 0] S1x2048) (hb : S1x2048.Broadcasts S1024x2048) (k : Fin 3) (hk : k.val = o)
    (r : Fin 1024) (l : Fin 2048) :
    broadcastTo S1024x2048 (extractStridedSlice S1x2048 ![o, 0] (shapeCast S3x2048 x1 hc) hs) hb (ix2 r l)
      = x1 (ix3 (0 : Fin 1) k l) :=
  (broadcastTo_1b_ab_apply _ hb r l).trans
    ((slice2_axis0_apply o _ hs (0 : Fin 1) l k hk).trans (shapeCast_1ab_ab_apply x1 hc k l))

end Layout

/-! ## The stored values at an index -/

/-- The tile of squared distances at `(r, l)`: the three squared coordinate differences between predicted point `r`
    and ground-truth point `l` of the blocks, added from the left. Each operand of each difference is a column or a row
    broadcast read by `col_apply` / `row_apply`; the arithmetic is pointwise. -/
theorem pay5_apply (x0 : Vec Ideal S1x1024x3 .f32) (x1 : Vec Ideal S1x3x2048 .f32) (r : Fin 1024) (l : Fin 2048) :
    k0_pay5 (F := Ideal) x0 x1 (ix2 r l)
      = (x0 (ix3 (0 : Fin 1) r (0 : Fin 3)) - x1 (ix3 (0 : Fin 1) (0 : Fin 3) l)) * (x0 (ix3 (0 : Fin 1) r (0 : Fin 3)) - x1 (ix3 (0 : Fin 1) (0 : Fin 3) l))
        + (x0 (ix3 (0 : Fin 1) r (1 : Fin 3)) - x1 (ix3 (0 : Fin 1) (1 : Fin 3) l)) * (x0 (ix3 (0 : Fin 1) r (1 : Fin 3)) - x1 (ix3 (0 : Fin 1) (1 : Fin 3) l))
        + (x0 (ix3 (0 : Fin 1) r (2 : Fin 3)) - x1 (ix3 (0 : Fin 1) (2 : Fin 3) l)) * (x0 (ix3 (0 : Fin 1) r (2 : Fin 3)) - x1 (ix3 (0 : Fin 1) (2 : Fin 3) l)) := by
  rw [← col_apply x0 0 shapeCasts_S1x1024x3_S1024x3 slices_S1024x3_o0_0_S1024x1 broadcasts_S1024x1_S1024x2048 (0 : Fin 3) rfl r l,
    ← col_apply x0 1 shapeCasts_S1x1024x3_S1024x3 slices_S1024x3_o0_1_S1024x1 broadcasts_S1024x1_S1024x2048 (1 : Fin 3) rfl r l,
    ← col_apply x0 2 shapeCasts_S1x1024x3_S1024x3 slices_S1024x3_o0_2_S1024x1 broadcasts_S1024x1_S1024x2048 (2 : Fin 3) rfl r l,
    ← row_apply x1 0 shapeCasts_S1x3x2048_S3x2048 slices_S3x2048_o0_0_S1x2048 broadcasts_S1x2048_S1024x2048 (0 : Fin 3) rfl r l,
    ← row_apply x1 1 shapeCasts_S1x3x2048_S3x2048 slices_S3x2048_o1_0_S1x2048 broadcasts_S1x2048_S1024x2048 (1 : Fin 3) rfl r l,
    ← row_apply x1 2 shapeCasts_S1x3x2048_S3x2048 slices_S3x2048_o2_0_S1x2048 broadcasts_S1x2048_S1024x2048 (2 : Fin 3) rfl r l]
  rfl

/-- The row value at `r`: the least, over the lanes `l`, of the squared distance at `(r, l)` plus the mask term of lane
    `l` (the mask block's row broadcast over the tile); the lane minimum starts from `+∞`. -/
theorem pay6_apply (x0 : Vec Ideal S1x1024x3 .f32) (x1 : Vec Ideal S1x3x2048 .f32) (x2 : Vec Ideal S1x1x2048 .f32) (r : Fin 1024) :
    k0_pay6 (F := Ideal) x0 x1 x2 (ix2 r (0 : Fin 1))
      = Finset.univ.inf fun l : Fin 2048 => k0_pay5 (F := Ideal) x0 x1 (ix2 r l) + x2 (ix3 (0 : Fin 1) (0 : Fin 1) l) := by
  unfold k0_pay6
  refine (shapeCast_a_a1_apply _ shapeCasts_S1024_S1024x1 r (0 : Fin 1)).trans ?_
  refine (laneMin_apply _ reduces_S1024x2048_S1024 _ _ r).trans ?_
  refine congrArg (Finset.univ.inf) (funext fun l => ?_)
  refine (addf_apply _ _ _).trans ?_
  refine congrArg (k0_pay5 (F := Ideal) x0 x1 (ix2 r l) + ·) ?_
  exact (broadcastTo_1b_ab_apply _ broadcasts_S1x2048_S1024x2048 r l).trans
    (shapeCast_1ab_ab_apply x2 shapeCasts_S1x1x2048_S1x2048 (0 : Fin 1) l)

/-- The running column minimum at lane `l`: the lesser of the stored value and the least squared distance down
    column `l` of the tile. -/
theorem pay2_apply (v31 : FVec Ideal S1024x2048 .f32) (v49 : Vec Ideal S1x1x2048 .f32) (l : Fin 2048) :
    k0_pay2 (F := Ideal) v31 v49 (ix3 (0 : Fin 1) (0 : Fin 1) l)
      = min (v49 (ix3 (0 : Fin 1) (0 : Fin 1) l)) (Finset.univ.inf fun r : Fin 1024 => v31 (ix2 r l)) := by
  unfold k0_pay2
  refine (shapeCast_a_11a_apply _ shapeCasts_S2048_S1x1x2048 (0 : Fin 1) (0 : Fin 1) l).trans ?_
  refine (minimumf_apply _ _ _).trans ?_
  refine congrArg₂ min (shapeCast_11a_a_apply v49 shapeCasts_S1x1x2048_S2048 l) ?_
  refine (shapeCast_1a_a_apply _ shapeCasts_S1x2048_S2048 l).trans ?_
  refine (shapeCast_a_1a_apply _ shapeCasts_S2048_S1x2048 (0 : Fin 1) l).trans ?_
  exact rowsMin_apply v31 reduces_S1024x2048_S2048 _ _ l

/-- The row minima's initial value is `+∞` everywhere. -/
theorem pay3_apply (y : S1x1024x1.Idx) : k0_pay3 (F := Ideal) y = (⊤ : EReal) := by
  show Ideal.ofBits .f32 0x7F800000#32 = ⊤
  exact ofBits_posInf

/-- The column minima's initial value is `+∞` everywhere. -/
theorem pay4_apply (y : S1x1x8192.Idx) : k0_pay4 (F := Ideal) y = (⊤ : EReal) := by
  show Ideal.ofBits .f32 0x7F800000#32 = ⊤
  exact ofBits_posInf

/-- The running row minimum at `r`: the lesser of the stored value and the new row value. -/
theorem pay1_apply (v37 : FVec Ideal S1024x1 .f32) (v38 : Vec Ideal S1x1024x1 .f32) (r : Fin 1024) :
    k0_pay1 (F := Ideal) v37 v38 (ix3 (0 : Fin 1) r (0 : Fin 1)) = min (v38 (ix3 (0 : Fin 1) r (0 : Fin 1))) (v37 (ix2 r (0 : Fin 1))) := by
  unfold k0_pay1
  rw [shapeCast_self]
  refine (minimumf_apply _ _ _).trans ?_
  exact congrArg (min _) (shapeCast_ab_1ab_apply v37 _ 0 r 0)

end Cert.KernelIdeal.Payloads

end
-- ==== Proof.TiledMin.lean ====
import Mathlib.Data.EReal.Basic
import Mathlib.Data.Finset.Lattice.Fold
import Mathlib.Data.Fintype.Basic
import Mathlib.Order.Lattice
import Mathlib.Tactic.Linarith

/-!
# An infimum over a range of indices, taken tile by tile

Pure order theory on the extended reals. `prefInf g k` is the infimum of `g` over the indices
below `k`. Cutting the indices into consecutive tiles of `T` elements, the infimum over the first
`T·(k+1)` indices is the minimum of the infimum over the first `T·k` indices and the infimum over
tile number `k`: the index set `{n | n < T(k+1)}` is the union of `{n | n < Tk}` and the tile
`{Tk + r | r < T}`, and an infimum over a union is the minimum of the two infima. Starting from
the empty infimum `⊤` and folding in the tiles one after another therefore yields the infimum over
all indices.

Every equality of infima is shown through the universal property
`c ≤ inf_{i ∈ s} f i ↔ ∀ i ∈ s, c ≤ f i`; nothing is evaluated element by element.
-/

namespace Cert.TiledMin

/-- The infimum of `g` over the indices below `k`. -/
noncomputable def prefInf {N : ℕ} (g : Fin N → EReal) (k : ℕ) : EReal :=
  (Finset.univ.filter fun n : Fin N => n.val < k).inf g

/-- A lower bound of the prefix infimum is a lower bound of every value below the cut. -/
theorem le_prefInf_iff {N : ℕ} (g : Fin N → EReal) (k : ℕ) (c : EReal) :
    c ≤ prefInf g k ↔ ∀ n : Fin N, n.val < k → c ≤ g n := by
  simp only [prefInf, Finset.le_inf_iff, Finset.mem_filter, Finset.mem_univ, true_and]

/-- No index lies below `0`: the empty infimum is the top element. -/
theorem prefInf_zero {N : ℕ} (g : Fin N → EReal) : prefInf g 0 = ⊤ := by
  refine eq_of_forall_le_iff fun c => ?_
  rw [le_prefInf_iff]
  exact ⟨fun _ => le_top, fun _ n hn => absurd hn (Nat.not_lt_zero _)⟩

/-- Every index lies below `N`: the full prefix infimum is the infimum over all indices. -/
theorem prefInf_full {N : ℕ} (g : Fin N → EReal) : prefInf g N = Finset.univ.inf g := by
  refine eq_of_forall_le_iff fun c => ?_
  rw [le_prefInf_iff, Finset.le_inf_iff]
  exact ⟨fun H n _ => H n n.isLt, fun H n _ => H n (Finset.mem_univ n)⟩

/-- One tile more: the indices below `T(k+1)` are those below `Tk` together with the tile
`Tk + r`, `r < T`. -/
theorem prefInf_step {N : ℕ} (T : ℕ) (g : Fin N → EReal) (k : ℕ) (h : T * (k + 1) ≤ N) :
    prefInf g (T * (k + 1)) =
      min (prefInf g (T * k))
        (Finset.univ.inf fun r : Fin T =>
          g ⟨T * k + r.val, by
            have := r.isLt
            have e : T * (k + 1) = T * k + T := Nat.mul_succ T k
            omega⟩) := by
  have e : T * (k + 1) = T * k + T := Nat.mul_succ T k
  refine eq_of_forall_le_iff fun c => ?_
  rw [le_min_iff, le_prefInf_iff, le_prefInf_iff, Finset.le_inf_iff]
  constructor
  · intro H
    refine ⟨fun n hn => H n (by omega), fun r _ => H _ ?_⟩
    have := r.isLt
    show T * k + r.val < T * (k + 1)
    omega
  · rintro ⟨Hlo, Htile⟩ n hn
    by_cases hlo : n.val < T * k
    · exact Hlo n hlo
    · -- `n` lies in tile `k`, at offset `n - Tk`
      have hr : n.val - T * k < T := by omega
      have := Htile ⟨n.val - T * k, hr⟩ (Finset.mem_univ _)
      have en : (⟨T * k + (n.val - T * k), by omega⟩ : Fin N) = n := Fin.ext (by
        show T * k + (n.val - T * k) = n.val
        omega)
      rw [← en]
      exact this

/-- The top element is neutral for the minimum. -/
theorem top_min (x : EReal) : min ⊤ x = x := min_eq_right le_top

/-- The prefix infimum only looks at the values below the cut. -/
theorem prefInf_congr {N : ℕ} (g g' : Fin N → EReal) (k : ℕ)
    (h : ∀ n : Fin N, n.val < k → g n = g' n) : prefInf g k = prefInf g' k := by
  refine eq_of_forall_le_iff fun c => ?_
  rw [le_prefInf_iff, le_prefInf_iff]
  exact ⟨fun H n hn => h n hn ▸ H n hn, fun H n hn => (h n hn).symm ▸ H n hn⟩

/-- A minimum over all of 8192 indices taken in 4 tiles of 2048 (literal sizes, for use by `rw`):
four applications of the tile step, from the empty prefix to the full one. -/
theorem inf_four_tiles (g : Fin 8192 → EReal) :
    min (min (min (min ⊤
      (Finset.univ.inf fun l : Fin 2048 => g ⟨2048 * 0 + l.val, by omega⟩))
      (Finset.univ.inf fun l : Fin 2048 => g ⟨2048 * 1 + l.val, by omega⟩))
      (Finset.univ.inf fun l : Fin 2048 => g ⟨2048 * 2 + l.val, by omega⟩))
      (Finset.univ.inf fun l : Fin 2048 => g ⟨2048 * 3 + l.val, by omega⟩) =
    Finset.univ.inf g := by
  have z : prefInf g (2048 * 0) = ⊤ := prefInf_zero g
  have s0 := prefInf_step 2048 g 0 (by norm_num)
  have s1 := prefInf_step 2048 g 1 (by norm_num)
  have s2 := prefInf_step 2048 g 2 (by norm_num)
  have s3 := prefInf_step 2048 g 3 (by norm_num)
  have f : prefInf g (2048 * (3 + 1)) = Finset.univ.inf g := prefInf_full g
  rw [← f, s3]
  refine congrArg (fun x => min x _) ?_
  refine Eq.trans ?_ s2.symm
  refine congrArg (fun x => min x _) ?_
  refine Eq.trans ?_ s1.symm
  refine congrArg (fun x => min x _) ?_
  refine Eq.trans ?_ s0.symm
  rw [z]

end Cert.TiledMin
-- ==== Proof.KiSeen.lean ====
import proofs.«414502_j84739704750726_3_alg».proof.Proof.TiledMin
import Mathlib.Data.EReal.Basic
import Mathlib.Data.Finset.Lattice.Fold
import Mathlib.Data.Fintype.Basic

/-!
# How much of the row range each column has seen

A block of 8192 column minima is lowered tile by tile. The rows (8192 of them) come in 8 row
tiles of 1024, the columns in 4 column tiles of 2048; the walk visits the row tiles `i = 0..7`
outermost and the column tiles `j = 0..3` innermost, and at the point `(i, j)` only the columns of
tile `j` are lowered, by the minimum over row tile `i`. Hence after the point `(i, j)` a column
`x` holds the infimum over the first `1024·(i+1)` rows when its tile `x / 2048` is at most `j`,
and over the first `1024·i` rows otherwise. `seen i j x` is that number of rows; each point of
the walk is one tile step of the prefix infimum for the columns of its tile and leaves the other
columns alone.

The row side is the plain running minimum over the 4 column tiles.
-/

namespace Cert.TiledMin

/-- how many predicted points column `x` has seen after the point of row tile `i` and column
tile `j` -/
def seen (i j : ℕ) (x : Fin 8192) : ℕ := if x.val / 2048 ≤ j then 1024 * (i + 1) else 1024 * i

/-- A column whose tile has been visited in row tile `i` has seen that row tile. -/
theorem seen_of_le (i j : ℕ) (x : Fin 8192) (h : x.val / 2048 ≤ j) : seen i j x = 1024 * (i + 1) :=
  if_pos h

/-- A column whose tile is still to come in row tile `i` has seen only the earlier row tiles. -/
theorem seen_of_gt (i j : ℕ) (x : Fin 8192) (h : j < x.val / 2048) : seen i j x = 1024 * i :=
  if_neg (Nat.not_le.mpr h)

/-- After the last point every column has seen all rows. -/
theorem seen_last (x : Fin 8192) : seen 7 3 x = 8192 := by
  have hx : x.val / 2048 ≤ 3 := by omega
  rw [seen_of_le 7 3 x hx]

/-- the first point of a batch, after the reset to +∞ -/
theorem seen_first (g : Fin 8192 → EReal) (x : Fin 8192) :
    (if x.val / 2048 = 0 then
        min ⊤ (Finset.univ.inf fun r : Fin 1024 => g ⟨1024 * 0 + r.val, by omega⟩)
      else ⊤) = prefInf g (seen 0 0 x) := by
  have z : prefInf g (1024 * 0) = ⊤ := prefInf_zero g
  by_cases hx : x.val / 2048 = 0
  · rw [if_pos hx, seen_of_le 0 0 x (by omega)]
    exact ((prefInf_step 1024 g 0 (by norm_num)).trans (congrArg (fun t => min t _) z)).symm
  · rw [if_neg hx, seen_of_gt 0 0 x (by omega)]
    exact z.symm

/-- a later column tile of the same row tile -/
theorem seen_next_col (g : Fin 8192 → EReal) (i j : ℕ) (hi : i < 8) (hj : j + 1 < 4)
    (x : Fin 8192) :
    (if x.val / 2048 = j + 1 then
        min (prefInf g (seen i j x))
          (Finset.univ.inf fun r : Fin 1024 => g ⟨1024 * i + r.val, by omega⟩)
      else prefInf g (seen i j x)) = prefInf g (seen i (j + 1) x) := by
  by_cases hx : x.val / 2048 = j + 1
  · -- the columns of tile `j + 1`: one tile step, from `1024·i` rows to `1024·(i+1)`
    rw [if_pos hx, seen_of_gt i j x (by omega), seen_of_le i (j + 1) x (by omega)]
    exact (prefInf_step 1024 g i (by omega)).symm
  · -- the other columns keep their value, and their count does not change
    rw [if_neg hx]
    by_cases hle : x.val / 2048 ≤ j
    · rw [seen_of_le i j x hle, seen_of_le i (j + 1) x (by omega)]
    · rw [seen_of_gt i j x (by omega), seen_of_gt i (j + 1) x (by omega)]

/-- the first column tile of the next row tile -/
theorem seen_next_row (g : Fin 8192 → EReal) (i : ℕ) (hi : i + 1 < 8) (x : Fin 8192) :
    (if x.val / 2048 = 0 then
        min (prefInf g (seen i 3 x))
          (Finset.univ.inf fun r : Fin 1024 => g ⟨1024 * (i + 1) + r.val, by omega⟩)
      else prefInf g (seen i 3 x)) = prefInf g (seen (i + 1) 0 x) := by
  -- after column tile 3 every column has seen row tile `i`
  have hx3 : x.val / 2048 ≤ 3 := by omega
  rw [seen_of_le i 3 x hx3]
  by_cases hx : x.val / 2048 = 0
  · rw [if_pos hx, seen_of_le (i + 1) 0 x (by omega)]
    exact (prefInf_step 1024 g (i + 1) (by omega)).symm
  · rw [if_neg hx, seen_of_gt (i + 1) 0 x (by omega)]

/-- the row side: the running minimum over column tiles (literal tile size 2048), for `rw` -/
theorem row_first (g : Fin 8192 → EReal) :
    min ⊤ (Finset.univ.inf fun l : Fin 2048 => g ⟨2048 * 0 + l.val, by omega⟩) =
      prefInf g (2048 * (0 + 1)) := by
  have z : prefInf g (2048 * 0) = ⊤ := prefInf_zero g
  exact ((prefInf_step 2048 g 0 (by norm_num)).trans (congrArg (fun t => min t _) z)).symm

theorem row_next (g : Fin 8192 → EReal) (j : ℕ) (hj : j + 1 < 4) :
    min (prefInf g (2048 * (j + 1)))
        (Finset.univ.inf fun l : Fin 2048 => g ⟨2048 * (j + 1) + l.val, by omega⟩) =
      prefInf g (2048 * (j + 1 + 1)) :=
  (prefInf_step 2048 g (j + 1) (by omega)).symm

theorem row_last (g : Fin 8192 → EReal) : prefInf g (2048 * (3 + 1)) = Finset.univ.inf g :=
  prefInf_full g

end Cert.TiledMin
-- ==== Proof.KiAccum.lean ====
/-
  What the kernel's two running minima hold after each grid point.

  Grid point `t` (batch `pb t`, row tile `pi t`, column tile `pj t`; `t = 32·pb + 4·pi + pj`) sees the 1024 x 2048 tile of
  squared distances between predicted points `1024·pi + r` and ground-truth points `2048·pj + l` of its batch.
  * The scratch holds, after point `t`, for each local row `r` the least masked squared distance from predicted point
    `1024·pi + r` to the ground-truth points of column tiles `0 .. pj`: it is reset at column tile `0` and lowered by
    the tile's row values at every point. After column tile `3` it is the row minimum over all ground-truth points.
  * The column-minimum block holds, after point `t`, for each column `x` the least squared distance from ground-truth
    point `x` to the predicted points the column has seen: all of row tiles `0 .. pi` when the column's tile is at most
    `pj`, and of row tiles `0 .. pi - 1` otherwise. It is reset at the first point of a batch, and each point lowers
    the columns of its own column tile by the tile's column minima. After the last point of a batch it is the column
    minimum over all predicted points.
  Each statement is one tile step of a prefix infimum, read at one index.
-/
import proofs.«414502_j84739704750726_3_alg».proof.Proof.KiBlocks
import proofs.«414502_j84739704750726_3_alg».proof.Proof.KiPayloads
import proofs.«414502_j84739704750726_3_alg».proof.Proof.KiUpd
import proofs.«414502_j84739704750726_3_alg».proof.Proof.KiSeen
import proofs.«414502_j84739704750726_3_alg».proof.Proof.ChamferSpec
import Idealize.ShloMosaic.Lib.ValueIdx

noncomputable section

namespace Cert.KernelIdeal.Accum

open Cert.KernelIdeal Cert.KernelIdeal.Gen Cert.KernelIdeal.Blocks Cert.KernelIdeal.Payloads Cert.KernelIdeal.Body
open Cert.TiledMin Cert.ChamferSpec
open Idealize.ShloMosaic Idealize.ShloMosaic.TcCoe Idealize.ShloMosaic.ValueIdx

variable (m : (ℓ : Loc nD τ sig) → Buf (Elt Ideal) ℓ) (c : Dev nD)

/-- The predicted points. -/
abbrev PR : SPts.Idx → EReal := m ((c : Thread nD τ).loc main_arg0)
/-- The ground-truth points. -/
abbrev GT : SPts.Idx → EReal := m ((c : Thread nD τ).loc main_arg1)
/-- The validity bits of the ground-truth points. -/
abbrev VALID : SVal.Idx → BitVec 1 := m ((c : Thread nD τ).loc main_arg2)

/-- Local row `r` of point `t`'s row tile, as a predicted point of the batch. -/
def rowOf (t : Fin cfg0.N) (r : Fin 1024) : Fin 8192 :=
  ⟨1024 * (pi t).val + r.val, by have := (pi t).isLt; omega⟩

/-- masked squared distances from one predicted point of point t's row tile -/
def rowFun (t : Fin cfg0.N) (r : Fin 1024) : Fin 8192 → EReal :=
  fun mm => dist2 (PR m c) (GT m c) (pb t) (rowOf t r) mm + maskAdd (VALID m c) (pb t) mm

/-- squared distances to one ground-truth point -/
def colFun (b : Fin 4) (x : Fin 8192) : Fin 8192 → EReal := fun n => dist2 (PR m c) (GT m c) b n x

/-- The scratch after point `t`: per local row, the least masked squared distance to the ground-truth points of
    column tiles `0 .. pj t`. -/
def scSpec (t : Fin cfg0.N) : Vec Ideal S1x1024x1 .f32 :=
  fun y => prefInf (rowFun m c t (y 1)) (2048 * ((pj t).val + 1))

/-- The column-minimum block after point `t`: per column, the least squared distance to the predicted points it has
    seen. -/
def o4Spec (t : Fin cfg0.N) : Vec Ideal S1x1x8192 .f32 :=
  fun y => prefInf (colFun m c (pb t) (y 2)) (seen (pi t).val (pj t).val (y 2))

/-! ## The tile steps, with the tile numbers as elements of `Fin 4` and `Fin 8`

The steps of the running minima are stated over natural tile numbers; a grid point carries its tile numbers as
elements of `Fin 4` (column tile) and `Fin 8` (row tile). These restate the steps for such elements. -/

/-- The row side's first column tile. -/
theorem lanes_first (f : Fin 8192 → EReal) (J : Fin 4) (hJ : J.val = 0) :
    min ⊤ (Finset.univ.inf fun l : Fin 2048 => f ⟨2048 * J.val + l.val, by have := J.isLt; omega⟩)
      = prefInf f (2048 * (J.val + 1)) := by
  obtain ⟨j, hj⟩ := J
  change j = 0 at hJ
  subst hJ
  exact row_first f

/-- The row side's later column tiles. -/
theorem lanes_next (f : Fin 8192 → EReal) (J J' : Fin 4) (hJ : J'.val + 1 = J.val) :
    min (prefInf f (2048 * (J'.val + 1)))
        (Finset.univ.inf fun l : Fin 2048 => f ⟨2048 * J.val + l.val, by have := J.isLt; omega⟩)
      = prefInf f (2048 * (J.val + 1)) := by
  obtain ⟨j, hj⟩ := J
  obtain ⟨j', hj'⟩ := J'
  change j' + 1 = j at hJ
  subst hJ
  exact row_next f j' hj

/-- The column side's first point of a batch. -/
theorem cols_first (g : Fin 8192 → EReal) (I : Fin 8) (J : Fin 4) (hI : I.val = 0) (hJ : J.val = 0) (x : Fin 8192) :
    (if x.val / 2048 = J.val then
        min ⊤ (Finset.univ.inf fun r : Fin 1024 => g ⟨1024 * I.val + r.val, by have := I.isLt; omega⟩)
      else ⊤) = prefInf g (seen I.val J.val x) := by
  obtain ⟨i, hi⟩ := I
  obtain ⟨j, hj⟩ := J
  change i = 0 at hI
  change j = 0 at hJ
  subst hI hJ
  exact seen_first g x

/-- The column side, from one column tile to the next within a row tile. -/
theorem cols_next_col (g : Fin 8192 → EReal) (I I' : Fin 8) (J J' : Fin 4) (hI : I'.val = I.val)
    (hJ : J'.val + 1 = J.val) (x : Fin 8192) :
    (if x.val / 2048 = J.val then
        min (prefInf g (seen I'.val J'.val x))
          (Finset.univ.inf fun r : Fin 1024 => g ⟨1024 * I.val + r.val, by have := I.isLt; omega⟩)
      else prefInf g (seen I'.val J'.val x)) = prefInf g (seen I.val J.val x) := by
  obtain ⟨i, hi⟩ := I
  obtain ⟨i', hi'⟩ := I'
  obtain ⟨j, hj⟩ := J
  obtain ⟨j', hj'⟩ := J'
  change i' = i at hI
  change j' + 1 = j at hJ
  subst hI hJ
  exact seen_next_col g i' j' hi' hj x

/-- The column side, from the last column tile of a row tile to the first of the next. -/
theorem cols_next_row (g : Fin 8192 → EReal) (I I' : Fin 8) (J J' : Fin 4) (hI : I'.val + 1 = I.val)
    (hJ' : J'.val = 3) (hJ : J.val = 0) (x : Fin 8192) :
    (if x.val / 2048 = J.val then
        min (prefInf g (seen I'.val J'.val x))
          (Finset.univ.inf fun r : Fin 1024 => g ⟨1024 * I.val + r.val, by have := I.isLt; omega⟩)
      else prefInf g (seen I'.val J'.val x)) = prefInf g (seen I.val J.val x) := by
  obtain ⟨i, hi⟩ := I
  obtain ⟨i', hi'⟩ := I'
  obtain ⟨j, hj⟩ := J
  obtain ⟨j', hj'⟩ := J'
  change i' + 1 = i at hI
  change j' = 3 at hJ'
  change j = 0 at hJ
  subst hI hJ' hJ
  exact seen_next_row g i' hi x

/-! ## One point's tile of squared distances, and its row values -/

/-- The tile of squared distances at local row `r` and lane `l` of point `t`: the squared distance between predicted
    point `1024·pi + r` and ground-truth point `2048·pj + l` of the point's batch. -/
theorem tile_d2 (t : Fin cfg0.N) (r : Fin 1024) (l : Fin 2048) :
    k0_pay5 (F := Ideal) (prBlk m c t) (gtBlk m c t) (ix2 r l)
      = dist2 (PR m c) (GT m c) (pb t) (rowOf t r)
          ⟨2048 * (pj t).val + l.val, by have := (pj t).isLt; omega⟩ := by
  rw [pay5_apply, prBlk_apply m c t r 0, prBlk_apply m c t r 1, prBlk_apply m c t r 2,
    gtBlk_apply m c t 0 l, gtBlk_apply m c t 1 l, gtBlk_apply m c t 2 l]
  rfl

/-- The row value at local row `r` of point `t`: the least masked squared distance to the ground-truth points of
    the point's column tile. -/
theorem row_val (t : Fin cfg0.N) (r : Fin 1024) :
    k0_pay6 (F := Ideal) (prBlk m c t) (gtBlk m c t) (mkBlk m c t) (ix2 r (0 : Fin 1))
      = Finset.univ.inf fun l : Fin 2048 =>
          rowFun m c t r ⟨2048 * (pj t).val + l.val, by have := (pj t).isLt; omega⟩ := by
  refine (pay6_apply _ _ _ r).trans ?_
  refine congrArg Finset.univ.inf (funext fun l => ?_)
  rw [tile_d2, mkBlk_apply]
  rfl

/-! ## The scratch: the running row minimum over the column tiles -/

theorem sc_reset (t : Fin cfg0.N) (h : t.val % 4 = 0) :
    k0_pay1 (F := Ideal) (k0_pay6 (F := Ideal) (prBlk m c t) (gtBlk m c t) (mkBlk m c t)) (k0_pay3 (F := Ideal))
      = scSpec m c t := by
  funext y
  obtain ⟨a, r, b, rfl⟩ : ∃ (a : Fin 1) (r : Fin 1024) (b : Fin 1), y = ix3 a r b := ⟨y 0, y 1, y 2, eq_ix3 y⟩
  obtain rfl : a = 0 := Subsingleton.elim _ _
  obtain rfl : b = 0 := Subsingleton.elim _ _
  refine (pay1_apply _ _ r).trans ?_
  rw [pay3_apply, row_val]
  exact lanes_first (rowFun m c t r) (pj t) h

theorem sc_step (t t' : Fin cfg0.N) (ht : t'.val + 1 = t.val) (h : ¬ t.val % 4 = 0) :
    k0_pay1 (F := Ideal) (k0_pay6 (F := Ideal) (prBlk m c t) (gtBlk m c t) (mkBlk m c t)) (scSpec m c t')
      = scSpec m c t := by
  -- the point before lies in the same batch and row tile, one column tile earlier
  have hb : pb t' = pb t := Fin.ext (by show t'.val / 32 = t.val / 32; omega)
  have hi : rowOf t' = rowOf t := funext fun r => Fin.ext (by
    show 1024 * (t'.val % 32 / 4) + r.val = 1024 * (t.val % 32 / 4) + r.val
    omega)
  have hj : (pj t').val + 1 = (pj t).val := by show t'.val % 4 + 1 = t.val % 4; omega
  funext y
  obtain ⟨a, r, b, rfl⟩ : ∃ (a : Fin 1) (r : Fin 1024) (b : Fin 1), y = ix3 a r b := ⟨y 0, y 1, y 2, eq_ix3 y⟩
  obtain rfl : a = 0 := Subsingleton.elim _ _
  obtain rfl : b = 0 := Subsingleton.elim _ _
  refine (pay1_apply _ _ r).trans ?_
  have hf : rowFun m c t' r = rowFun m c t r := by unfold rowFun; rw [hb, hi]
  have e : scSpec m c t' (ix3 (0 : Fin 1) r (0 : Fin 1))
      = prefInf (rowFun m c t r) (2048 * ((pj t').val + 1)) := congrArg (fun f => prefInf f _) hf
  rw [e, row_val]
  exact lanes_next (rowFun m c t r) (pj t) (pj t') hj

theorem sc_last (t : Fin cfg0.N) (h : t.val % 4 = 3) (r : Fin 1024) :
    scSpec m c t (ix3 (0 : Fin 1) r (0 : Fin 1)) = rowMinAt (PR m c) (GT m c) (VALID m c) (pb t) (rowOf t r) := by
  have hJ : (pj t).val = 3 := h
  show prefInf (rowFun m c t r) (2048 * ((pj t).val + 1)) = _
  rw [hJ]
  exact row_last (rowFun m c t r)

/-! ## The column-minimum block: one point lowers the columns of its column tile -/

/-- One point's update at column `x`: a column of the point's column tile is lowered by the least squared distance to
    the predicted points of the point's row tile; the other columns keep their value. -/
theorem col_upd (t : Fin cfg0.N) (old : Vec Ideal S1x1x8192 .f32) (x : Fin 8192) :
    updCol (F := Ideal) (pj t) (prBlk m c t) (gtBlk m c t) old (ix3 (0 : Fin 1) (0 : Fin 1) x)
      = if x.val / 2048 = (pj t).val then
          min (old (ix3 (0 : Fin 1) (0 : Fin 1) x))
            (Finset.univ.inf fun r : Fin 1024 => colFun m c (pb t) x (rowOf t r))
        else old (ix3 (0 : Fin 1) (0 : Fin 1) x) := by
  have hjlt := (pj t).isLt
  by_cases hx : x.val / 2048 = (pj t).val
  · have hin : 2048 * (pj t).val ≤ x.val ∧ x.val < 2048 * (pj t).val + 2048 := by omega
    rw [if_pos hx]
    refine (dif_pos hin).trans ?_
    refine (pay2_apply _ _ _).trans ?_
    refine congrArg₂ min ?_ ?_
    · refine congrArg old (congrArg (ix3 (0 : Fin 1) (0 : Fin 1)) (Fin.ext ?_))
      show 2048 * (pj t).val + (x.val - 2048 * (pj t).val) = x.val
      omega
    · refine congrArg Finset.univ.inf (funext fun r => ?_)
      rw [tile_d2]
      refine congrArg (dist2 (PR m c) (GT m c) (pb t) (rowOf t r)) (Fin.ext ?_)
      show 2048 * (pj t).val + (x.val - 2048 * (pj t).val) = x.val
      omega
  · have hout : ¬ (2048 * (pj t).val ≤ x.val ∧ x.val < 2048 * (pj t).val + 2048) := by omega
    rw [if_neg hx]
    exact dif_neg hout

theorem o4_first (t : Fin cfg0.N) (h : t.val % 32 = 0) :
    updCol (F := Ideal) (pj t) (prBlk m c t) (gtBlk m c t) (k0_pay4 (F := Ideal)) = o4Spec m c t := by
  have hI : (pi t).val = 0 := by show t.val % 32 / 4 = 0; omega
  have hJ : (pj t).val = 0 := by show t.val % 4 = 0; omega
  funext y
  obtain ⟨a, b, x, rfl⟩ : ∃ (a : Fin 1) (b : Fin 1) (x : Fin 8192), y = ix3 a b x := ⟨y 0, y 1, y 2, eq_ix3 y⟩
  obtain rfl : a = 0 := Subsingleton.elim _ _
  obtain rfl : b = 0 := Subsingleton.elim _ _
  rw [col_upd, pay4_apply]
  exact cols_first (colFun m c (pb t) x) (pi t) (pj t) hI hJ x

theorem o4_next (t t' : Fin cfg0.N) (ht : t'.val + 1 = t.val) (h : ¬ t.val % 32 = 0) :
    updCol (F := Ideal) (pj t) (prBlk m c t) (gtBlk m c t) (o4Spec m c t') = o4Spec m c t := by
  -- the point before lies in the same batch
  have hb : pb t' = pb t := Fin.ext (by show t'.val / 32 = t.val / 32; omega)
  funext y
  obtain ⟨a, b, x, rfl⟩ : ∃ (a : Fin 1) (b : Fin 1) (x : Fin 8192), y = ix3 a b x := ⟨y 0, y 1, y 2, eq_ix3 y⟩
  obtain rfl : a = 0 := Subsingleton.elim _ _
  obtain rfl : b = 0 := Subsingleton.elim _ _
  rw [col_upd]
  have e : o4Spec m c t' (ix3 (0 : Fin 1) (0 : Fin 1) x)
      = prefInf (colFun m c (pb t) x) (seen (pi t').val (pj t').val x) :=
    congrArg (fun b' => prefInf (colFun m c b' x) (seen (pi t').val (pj t').val x)) hb
  rw [e]
  by_cases hj0 : t.val % 4 = 0
  · -- first column tile of the next row tile
    exact cols_next_row (colFun m c (pb t) x) (pi t) (pi t') (pj t) (pj t')
      (by show t'.val % 32 / 4 + 1 = t.val % 32 / 4; omega) (by show t'.val % 4 = 3; omega)
      (by show t.val % 4 = 0; omega) x
  · -- next column tile of the same row tile
    exact cols_next_col (colFun m c (pb t) x) (pi t) (pi t') (pj t) (pj t')
      (by show t'.val % 32 / 4 = t.val % 32 / 4; omega) (by show t'.val % 4 + 1 = t.val % 4; omega) x

theorem o4_last (t : Fin cfg0.N) (h : t.val % 32 = 31) (x : Fin 8192) :
    o4Spec m c t (ix3 (0 : Fin 1) (0 : Fin 1) x) = colMinAt (PR m c) (GT m c) (pb t) x := by
  have hI : (pi t).val = 7 := by show t.val % 32 / 4 = 7; omega
  have hJ : (pj t).val = 3 := by show t.val % 4 = 3; omega
  show prefInf (colFun m c (pb t) x) (seen (pi t).val (pj t).val x) = _
  rw [hI, hJ, seen_last]
  exact prefInf_full (colFun m c (pb t) x)

end Cert.KernelIdeal.Accum

end
-- ==== Proof.KiInv.lean ====
/-
  The contents of the row-minimum scratch and of the column-minimum block after every grid point.

  The grid's 128 points are visited in order; point `t` is batch `t / 32`, row tile `(t % 32) / 4`, column tile
  `t % 4`. By induction along that order:
  * the scratch after point `t` holds, per row of the point's row tile, the least masked squared distance to the
    ground-truth points of column tiles `0 .. t % 4`: it is reset to `+∞` at a first column tile and lowered by the
    tile's row minima at every point;
  * the column-minimum block after point `t` holds, per ground-truth point of the batch, the least squared distance to
    the predicted points seen so far: it is reset to `+∞` at the batch's first point, and at every point the columns of
    the point's column tile are lowered by the tile's column minima;
  * at a last column tile the row-minimum output's buffer holds a copy of the scratch.
-/
import proofs.«414502_j84739704750726_3_alg».proof.Proof.KiBody
import proofs.«414502_j84739704750726_3_alg».proof.Proof.KiPieces
import proofs.«414502_j84739704750726_3_alg».proof.Proof.KiPieces2
import proofs.«414502_j84739704750726_3_alg».proof.Proof.KiAccum

noncomputable section

namespace Cert.KernelIdeal.Inv

open Cert.KernelIdeal Cert.KernelIdeal.Gen Cert.KernelIdeal.Body Cert.KernelIdeal.Blocks Cert.KernelIdeal.Accum
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The grid's last coordinate at point `t` is the point's column tile. -/
theorem coord2 : ∀ t : Fin cfg0.N, ((grid0.coords t) 2).val = (pj t).val :=
  (by decide +kernel : ∀ t : Fin grid0.N, _)

/-- One step of the induction: if the point before `t` (when `t` is not a batch's first point) left the two prefix
    infima, so does `t`. -/
theorem step (t : Fin cfg0.N)
    (ih : ¬ t.val % 32 = 0 → ∀ hp : t.val - 1 < cfg0.N,
      scAtN (F := Ideal) m c (t.val - 1) hp = scSpec m c ⟨t.val - 1, hp⟩
        ∧ o4AtN (F := Ideal) m c (t.val - 1) hp = o4Spec m c ⟨t.val - 1, hp⟩) :
    scAtN (F := Ideal) m c t.val t.isLt = scSpec m c t ∧ o4AtN (F := Ideal) m c t.val t.isLt = o4Spec m c t := by
  have hp : t.val - 1 < cfg0.N := Nat.lt_of_le_of_lt (Nat.sub_le _ _) t.isLt
  by_cases h1 : t.val % 32 = 0
  · -- a batch's first point: both are reset
    constructor
    · rw [scAtN_A m c t h1, sout0_A_eq]
      exact sc_reset m c t (by omega)
    · rw [o4AtN_A m c t h1, out0_A_4_eq (j := pj t) (hj := coord2 t)]
      exact o4_first m c t h1
  · have ht : (⟨t.val - 1, hp⟩ : Fin cfg0.N).val + 1 = t.val := by show t.val - 1 + 1 = t.val; omega
    obtain ⟨ihs, iho⟩ := ih h1 hp
    by_cases h0 : t.val % 4 = 0
    · -- a first column tile: the scratch is reset, the block goes on
      constructor
      · rw [scAtN_D m c t h1 h0, sout0_D_eq]
        exact sc_reset m c t h0
      · rw [o4AtN_D m c t h1 h0, out0_D_4_eq (j := pj t) (hj := coord2 t), iho]
        exact o4_next m c t ⟨t.val - 1, hp⟩ ht h1
    · by_cases h2 : t.val % 4 = 3
      · -- a last column tile: both go on
        constructor
        · rw [scAtN_C m c t h1 h0 h2, sout0_C_eq, ihs]
          exact sc_step m c t ⟨t.val - 1, hp⟩ ht h0
        · rw [o4AtN_C m c t h1 h0 h2, out0_C_4_eq (j := pj t) (hj := coord2 t), iho]
          exact o4_next m c t ⟨t.val - 1, hp⟩ ht h1
      · -- a middle column tile: both go on
        constructor
        · rw [scAtN_B m c t h1 h0 h2, sout0_B_eq, ihs]
          exact sc_step m c t ⟨t.val - 1, hp⟩ ht h0
        · rw [o4AtN_B m c t h1 h0 h2, out0_B_4_eq (j := pj t) (hj := coord2 t), iho]
          exact o4_next m c t ⟨t.val - 1, hp⟩ ht h1

/-- After every point the scratch and the column-minimum block hold the prefix infima. -/
theorem outs_spec (n : ℕ) (hn : n < cfg0.N) :
    scAtN (F := Ideal) m c n hn = scSpec m c ⟨n, hn⟩ ∧ o4AtN (F := Ideal) m c n hn = o4Spec m c ⟨n, hn⟩ := by
  induction n with
  | zero => exact step m c ⟨0, hn⟩ fun h => absurd (Nat.zero_mod 32) h
  | succ n ih => exact step m c ⟨n + 1, hn⟩ fun _ hp => ih hp

/-- At a last column tile the row-minimum output's buffer holds the scratch's prefix infimum. -/
theorem o3_spec (t : Fin cfg0.N) (h2 : t.val % 4 = 3) : o3At0 (F := Ideal) m c t = scSpec m c t := by
  have hp : t.val - 1 < cfg0.N := Nat.lt_of_le_of_lt (Nat.sub_le _ _) t.isLt
  have ht : (⟨t.val - 1, hp⟩ : Fin cfg0.N).val + 1 = t.val := by show t.val - 1 + 1 = t.val; omega
  rw [o3At0_C m c t h2, out0_C_3_eq, (outs_spec m c (t.val - 1) hp).1]
  exact sc_step m c t ⟨t.val - 1, hp⟩ ht (by omega)

/-- The row-minimum output's block after a last column tile. -/
theorem after3_spec (t : Fin cfg0.N) (h2 : t.val % 4 = 3) : (dats (F := Ideal) m 0 c).after 3 t = scSpec m c t :=
  (after0_3 m c t).trans (o3_spec m c t h2)

/-- The column-minimum output's block after every point. -/
theorem after4_spec (t : Fin cfg0.N) : (dats (F := Ideal) m 0 c).after 4 t = o4Spec m c t :=
  (after0_4 m c t).trans (outs_spec m c t.val t.isLt).2

end Cert.KernelIdeal.Inv

end
-- ==== Proof.KiFinal.lean ====
/-
  From the blocks the two output windows write back to the two output arrays after the run.

  The row-minimum output (four batches of 8192 predicted points) is written back in blocks of 1024 rows, at the last
  column tile of each row tile; the column-minimum output (four batches of 8192 ground-truth points) in one block per
  batch, at the last point of the batch. Each written block is the block of one function of the whole array — the row
  minima, the column minima — and the blocks tile the array, so the array ends holding that function.
-/
import proofs.«414502_j84739704750726_3_alg».proof.Proof.KiBody
import proofs.«414502_j84739704750726_3_alg».proof.Proof.KiAccum
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Body Cert.KernelIdeal.Blocks Cert.KernelIdeal.Accum Cert.ChamferSpec
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The block index of each output window at a grid point, on each axis: the batch on the leading axis, the row tile on
    the row-minimum output's row axis, zero elsewhere. -/
theorem out_idx_facts : ∀ t : Fin cfg0.N,
    win0_3.index t (0 : Fin 3) = t.val / 32 ∧ win0_3.index t (1 : Fin 3) = t.val % 32 / 4 ∧ win0_3.index t (2 : Fin 3) = 0
    ∧ win0_4.index t (0 : Fin 3) = t.val / 32 ∧ win0_4.index t (1 : Fin 3) = 0 ∧ win0_4.index t (2 : Fin 3) = 0 :=
  (by decide +kernel : ∀ t : Fin grid0.N, _)

/-- An index of the row-minimum array is in point `t`'s block iff each coordinate is in the block's range on its axis. -/
theorem mem_blk3 (t : Fin cfg0.N) (i : S4x8192x1.Idx) :
    i ∈ ((cfg0.win 3).blk t).view.set ↔ ∀ a : Fin 3, win0_3.index t a * S1x1024x1.size a ≤ (i a).val ∧ (i a).val < win0_3.index t a * S1x1024x1.size a + S1x1024x1.size a := by
  show i ∈ ((View.whole main_v4_0).slice (win0_3.rect t)).set ↔ _
  rw [View.set_slice_whole, Rect.mem_set_unit]
  exact Iff.rfl

/-- An index of the column-minimum array is in point `t`'s block iff each coordinate is in the block's range on its axis. -/
theorem mem_blk4 (t : Fin cfg0.N) (i : S4x1x8192.Idx) :
    i ∈ ((cfg0.win 4).blk t).view.set ↔ ∀ a : Fin 3, win0_4.index t a * S1x1x8192.size a ≤ (i a).val ∧ (i a).val < win0_4.index t a * S1x1x8192.size a + S1x1x8192.size a := by
  show i ∈ ((View.whole main_v4_1).slice (win0_4.rect t)).set ↔ _
  rw [View.set_slice_whole, Rect.mem_set_unit]
  exact Iff.rfl

/-- The row-minimum array ends holding, per batch and predicted point, the least masked squared distance to a
    ground-truth point. -/
theorem arr3_eq (h : ∀ t : Fin cfg0.N, t.val % 4 = 3 → (dats (F := Ideal) m 0 c).after 3 t = scSpec m c t) :
    (dats (F := Ideal) m 0 c).arrAt 3 cfg0.N = (fun y => rowMinAt (PR m c) (GT m c) (VALID m c) (y 0) (y 1) : S4x8192x1.Idx → EReal) := by
  have hN : cfg0.N = 128 := N_0
  refine (dats (F := Ideal) m 0 c).arrAt_eq_of_cover 3 _ (fun t hf => ?_) (fun i => ?_)
  · -- the block written back at a last column tile is the block of the row minima
    have h3 : t.val % 4 = 3 := (flush0_3 t).mp hf
    obtain ⟨e0, e1, e2, -⟩ := out_idx_facts t
    show (cfg0.win 3).cut (grid0.coords t) ((dats (F := Ideal) m 0 c).after 3 t) = _
    rw [h t h3]
    funext j
    rw [View.read_apply]
    have hj0 : (j 0).val < 1 := (j 0).isLt
    have hj1 : (j 1).val < 1024 := (j 1).isLt
    have hj2 : (j 2).val < 1 := (j 2).isLt
    have hx : (cfg0.win 3).xinj (grid0.coords t) j = ix3 (0 : Fin 1) (⟨(j 1).val, hj1⟩ : Fin 1024) (0 : Fin 1) := by
      funext a
      apply Fin.ext
      match a with
      | ⟨0, _⟩ => show (j 0).val = 0; omega
      | ⟨1, _⟩ => rfl
      | ⟨2, _⟩ => show (j 2).val = 0; omega
    have q0 : (((cfg0.win 3).blk t).view.emb j) 0 = pb t := by
      apply Fin.ext
      show win0_3.index t (0 : Fin 3) * 1 + 1 * (j 0).val = t.val / 32
      omega
    have q1 : (((cfg0.win 3).blk t).view.emb j) 1 = rowOf t ⟨(j 1).val, hj1⟩ := by
      apply Fin.ext
      show win0_3.index t (1 : Fin 3) * 1024 + 1 * (j 1).val = 1024 * (t.val % 32 / 4) + (j 1).val
      omega
    show scSpec m c t ((cfg0.win 3).xinj (grid0.coords t) j) = rowMinAt (PR m c) (GT m c) (VALID m c) ((((cfg0.win 3).blk t).view.emb j) 0) ((((cfg0.win 3).blk t).view.emb j) 1)
    rw [hx, q0, q1]
    exact sc_last m c t h3 _
  · -- every index is in the block of the last column tile of its batch and row tile
    have hi0 : (i 0).val < 4 := (i 0).isLt
    have hi1 : (i 1).val < 8192 := (i 1).isLt
    have hi2 : (i 2).val < 1 := (i 2).isLt
    let t : Fin cfg0.N := ⟨32 * (i 0).val + 4 * ((i 1).val / 1024) + 3, by omega⟩
    have ht : t.val = 32 * (i 0).val + 4 * ((i 1).val / 1024) + 3 := rfl
    obtain ⟨e0, e1, e2, -⟩ := out_idx_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 1 ≤ (i 2).val ∧ (i 2).val < win0_3.index t (2 : Fin 3) * 1 + 1; omega

/-- The column-minimum array ends holding, per batch and ground-truth point, the least squared distance to a
    predicted point. -/
theorem arr4_eq (h : ∀ t : Fin cfg0.N, t.val % 32 = 31 → (dats (F := Ideal) m 0 c).after 4 t = o4Spec m c t) :
    (dats (F := Ideal) m 0 c).arrAt 4 cfg0.N = (fun y => colMinAt (PR m c) (GT m c) (y 0) (y 2) : S4x1x8192.Idx → EReal) := by
  have hN : cfg0.N = 128 := N_0
  refine (dats (F := Ideal) m 0 c).arrAt_eq_of_cover 4 _ (fun t hf => ?_) (fun i => ?_)
  · -- the block written back at a batch's last point is the batch's column minima
    have h4 : t.val % 32 = 31 := (flush0_4 t).mp hf
    obtain ⟨-, -, -, e0, e1, e2⟩ := out_idx_facts t
    show (cfg0.win 4).cut (grid0.coords t) ((dats (F := Ideal) m 0 c).after 4 t) = _
    rw [h t h4]
    funext j
    rw [View.read_apply]
    have hj0 : (j 0).val < 1 := (j 0).isLt
    have hj1 : (j 1).val < 1 := (j 1).isLt
    have hj2 : (j 2).val < 8192 := (j 2).isLt
    have hx : (cfg0.win 4).xinj (grid0.coords t) j = ix3 (0 : Fin 1) (0 : Fin 1) (⟨(j 2).val, hj2⟩ : Fin 8192) := by
      funext a
      apply Fin.ext
      match a with
      | ⟨0, _⟩ => show (j 0).val = 0; omega
      | ⟨1, _⟩ => show (j 1).val = 0; omega
      | ⟨2, _⟩ => rfl
    have q0 : (((cfg0.win 4).blk t).view.emb j) 0 = pb t := by
      apply Fin.ext
      show win0_4.index t (0 : Fin 3) * 1 + 1 * (j 0).val = t.val / 32
      omega
    have q2 : (((cfg0.win 4).blk t).view.emb j) 2 = (⟨(j 2).val, hj2⟩ : Fin 8192) := by
      apply Fin.ext
      show win0_4.index t (2 : Fin 3) * 8192 + 1 * (j 2).val = (j 2).val
      omega
    show o4Spec m c t ((cfg0.win 4).xinj (grid0.coords t) j) = colMinAt (PR m c) (GT m c) ((((cfg0.win 4).blk t).view.emb j) 0) ((((cfg0.win 4).blk t).view.emb j) 2)
    rw [hx, q0, q2]
    exact o4_last m c t h4 _
  · -- every index is in the block of the last point of its batch
    have hi0 : (i 0).val < 4 := (i 0).isLt
    have hi1 : (i 1).val < 1 := (i 1).isLt
    have hi2 : (i 2).val < 8192 := (i 2).isLt
    let t : Fin cfg0.N := ⟨32 * (i 0).val + 31, by omega⟩
    have ht : t.val = 32 * (i 0).val + 31 := rfl
    obtain ⟨-, -, -, e0, e1, e2⟩ := out_idx_facts t
    refine ⟨t, (flush0_4 t).mpr (by omega), ?_⟩
    rw [mem_blk4]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 1 ≤ (i 1).val ∧ (i 1).val < win0_4.index t (1 : Fin 3) * 1 + 1; omega
    | ⟨2, _⟩ => show win0_4.index t (2 : Fin 3) * 8192 ≤ (i 2).val ∧ (i 2).val < win0_4.index t (2 : Fin 3) * 8192 + 8192; omega

end Cert.KernelIdeal.Final

end
-- ==== Proof.KiResult.lean ====
/-
  The idealized kernel program's run with its result named: the shared scalar of the row and column minima of the
  argument arrays.

  The program's run ends with every buffer the pipeline does not stage at what the host operations after the
  pallas_call make of the two output arrays; those operations are the shared scalar function of the two arrays
  with their unit axes dropped, and the two arrays are, entry by entry, the least masked squared distance from a
  predicted point and the least squared distance to a ground-truth point: at a last column tile the row-minimum
  scratch has seen all four column tiles, and at the last point of a batch every column has seen all eight row
  tiles.
-/
import proofs.«414502_j84739704750726_3_alg».proof.Proof.KiBody
import proofs.«414502_j84739704750726_3_alg».proof.Proof.KiTail
import proofs.«414502_j84739704750726_3_alg».proof.Proof.KiInv
import proofs.«414502_j84739704750726_3_alg».proof.Proof.KiFinal

set_option maxRecDepth 16384

noncomputable section

namespace Cert.KernelIdeal.Result

open Cert.KernelIdeal Cert.KernelIdeal.Gen Cert.KernelIdeal.Body Cert.KernelIdeal.Accum
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result buffer after the host operations that follow the pallas_call. -/
theorem result_eq (c : Dev nD) :
    Pipeline.afterTail₀ cfgs (dats (F := Ideal) m) 0 (V0 m) [hostOps1] c main_v23
      = Cert.ChamferSpec.tail (Cert.ChamferSpec.rowMin (PR m c) (GT m c) (VALID m c)) (Cert.ChamferSpec.colMin (PR m c) (GT m c)) (VALID m c) := by
  rw [Cert.KernelIdeal.Tail.tail_eq m (dats (F := Ideal) m) c _ _
    (Cert.KernelIdeal.Final.arr3_eq m c (fun t h => Cert.KernelIdeal.Inv.after3_spec m c t h))
    (Cert.KernelIdeal.Final.arr4_eq m c (fun t _ => Cert.KernelIdeal.Inv.after4_spec m c t))]
  rfl

/-- Every weakly fair execution of the idealized kernel program terminates with its result the shared scalar of the
    row and column minima of the arguments, the arguments unchanged. -/
theorem run : θ_run defs (onTc (τ := τ) (main (F := Ideal))) ⟨m, fun _ => 0, ρ⟩ (fun r => ∀ c : Dev nD,
      r.2.mem ((c.tc : Thread nD τ).loc main_v23)
          = Cert.ChamferSpec.tail
              (Cert.ChamferSpec.rowMin (m ((c.tc : Thread nD τ).loc main_arg0)) (m ((c.tc : Thread nD τ).loc main_arg1)) (m ((c.tc : Thread nD τ).loc main_arg2)))
              (Cert.ChamferSpec.colMin (m ((c.tc : Thread nD τ).loc main_arg0)) (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of main_v23 (by decide) (by decide))).trans (result_eq m c),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (W_main_arg1 m (dats (F := Ideal) m) c),
      ((h c).2 main_arg2 (Pipeline.mem_restRefs_of main_arg2 (by decide) (by decide))).trans (W_main_arg2 m (dats (F := Ideal) m) c)⟩)
    (run_main (F := Ideal) m ρ)

end Cert.KernelIdeal.Result

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.RefValue.lean ====
/-
  The reference program's result as the shared scalar of the row and column minima.
-/
import proofs.«414502_j84739704750726_3_alg».proof.Defs
import proofs.«414502_j84739704750726_3_alg».proof.Proof.Gen.ReferenceIdeal
import proofs.«414502_j84739704750726_3_alg».proof.Proof.Gen.ReferenceIdeal.Run
import proofs.«414502_j84739704750726_3_alg».proof.Proof.Gen.ReferenceIdeal.Read
import proofs.«414502_j84739704750726_3_alg».proof.Proof.ChamferSpec
import proofs.«414502_j84739704750726_3_alg».proof.Proof.LibIdealReal

noncomputable section

namespace Cert.RefValue

open Idealize.ShloMosaic Idealize.ShloMosaic.ValueIdx Idealize.SL.Sem
open Cert.ReferenceIdeal.Read

/-- The `f32` pattern `0x40000000` denotes `2`. -/
theorem ofBits_two : Ideal.ofBits .f32 0x40000000#32 = ((2 : ℝ) : EReal) := by
  simp [Ideal.ofBits, Ideal.ieee, -EReal.coe_mul]; norm_num

/-- The `f32` pattern `0x7F800000` denotes `+∞`. -/
theorem ofBits_inf : Ideal.ofBits .f32 0x7F800000#32 = (⊤ : EReal) := by
  simp [Ideal.ofBits, Ideal.ieee]

/-- Over the reals inside the extended reals: the two squared norms added, less twice the inner product, is the
    sum of the three squared coordinate differences, each side in the association the programs use. -/
theorem norms_sub_twice_dot (a0 a1 a2 b0 b1 b2 : ℝ) :
    ((0 + ((a0 : EReal) * a0 + (a1 : EReal) * a1 + (a2 : EReal) * a2))
        + (0 + ((b0 : EReal) * b0 + (b1 : EReal) * b1 + (b2 : EReal) * b2)))
      - ((2 : ℝ) : EReal) * ((a0 : EReal) * b0 + (a1 : EReal) * b1 + (a2 : EReal) * b2)
    = ((a0 : EReal) - b0) * ((a0 : EReal) - b0) + ((a1 : EReal) - b1) * ((a1 : EReal) - b1)
        + ((a2 : EReal) - b2) * ((a2 : EReal) - b2) := by
  rw [zero_add, zero_add]
  simp only [← EReal.coe_mul, ← EReal.coe_add, ← EReal.coe_sub]
  exact congrArg _ (by ring)

/-- The reference's squared distance at (batch, predicted point, ground-truth point): the two squared norms added,
    less twice the inner product, is the sum of the squared coordinate differences, the coordinates being real. -/
theorem v12_apply (x0 x1 : Cert.ChamferSpec.SPts.Idx → EReal)
    (h0 : ∀ i, Cert.Lib.IsReal (x0 i)) (h1 : ∀ i, Cert.Lib.IsReal (x1 i)) (b : Fin 4) (n m : Fin 8192) :
    val_main_v12 (F := Ideal) x0 x1 (ix3 b n m) = Cert.ChamferSpec.dist2 x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [val_main_v0_apply, val_main_v2_apply, val_main_cst_apply, val_main_cst_0_apply, val_main_cst_1_apply,
    e1, e3, el, er, Fin.sum_univ_three, Ideal.ofBits_def, Ideal.addf_def, Ideal.subf_def, Ideal.mulf_def,
    Ideal.ofBits_zero_f32, ofBits_two]
  obtain ⟨a0, ha0⟩ := h0 (ix3 b n (0 : Fin 3))
  obtain ⟨a1, ha1⟩ := h0 (ix3 b n (1 : Fin 3))
  obtain ⟨a2, ha2⟩ := h0 (ix3 b n (2 : Fin 3))
  obtain ⟨b0, hb0⟩ := h1 (ix3 b m (0 : Fin 3))
  obtain ⟨b1, hb1⟩ := h1 (ix3 b m (1 : Fin 3))
  obtain ⟨b2, hb2⟩ := h1 (ix3 b m (2 : Fin 3))
  unfold Cert.ChamferSpec.dist2
  rw [ha0, ha1, ha2, hb0, hb1, hb2]
  exact norms_sub_twice_dot a0 a1 a2 b0 b1 b2

/-- A squared distance between points with real coordinates is real. -/
theorem dist2_isReal (x0 x1 : Cert.ChamferSpec.SPts.Idx → EReal)
    (h0 : ∀ i, Cert.Lib.IsReal (x0 i)) (h1 : ∀ i, Cert.Lib.IsReal (x1 i)) (b : Fin 4) (n m : Fin 8192) :
    Cert.Lib.IsReal (Cert.ChamferSpec.dist2 x0 x1 b n m) := by
  unfold Cert.ChamferSpec.dist2
  exact ((((h0 _).sub (h1 _)).mul ((h0 _).sub (h1 _))).add (((h0 _).sub (h1 _)).mul ((h0 _).sub (h1 _)))).add
    (((h0 _).sub (h1 _)).mul ((h0 _).sub (h1 _)))

/-- The masked distance: selecting `+∞` at an invalid ground-truth point is adding `+∞` there and `0` elsewhere,
    the distance being real. -/
theorem v14_apply (x0 x1 : Cert.ChamferSpec.SPts.Idx → EReal) (x2 : Cert.ChamferSpec.SVal.Idx → BitVec 1)
    (h0 : ∀ i, Cert.Lib.IsReal (x0 i)) (h1 : ∀ i, Cert.Lib.IsReal (x1 i)) (b : Fin 4) (n m : Fin 8192) :
    val_main_v14 (F := Ideal) x0 x1 x2 (ix3 b n m)
      = Cert.ChamferSpec.dist2 x0 x1 b n m + Cert.ChamferSpec.maskAdd x2 b m := by
  have ei : idx_main_v13 (idx_main_call0_v1 (ix3 b n m)) = ix2 b m :=
    funext fun a => Fin.ext (by match a with | ⟨0, _⟩ => rfl | ⟨1, _⟩ => rfl)
  rw [val_main_v14_apply, val_main_call0_v1_apply, val_main_v13_apply, ei, val_main_call0_v2_apply,
    val_main_call0_v0_apply, val_main_cst_2_apply, v12_apply x0 x1 h0 h1, Ideal.ofBits_def, ofBits_inf]
  unfold Cert.ChamferSpec.maskAdd
  by_cases hv : x2 (ix2 b m) = 1#1
  · rw [hv, select_one, if_pos rfl, add_zero]
  · rw [eq_zero_of_ne_one hv, select_zero, if_neg (by decide),
      EReal.add_top_of_ne_bot (dist2_isReal x0 x1 h0 h1 b n m).ne_bot]

/-- The minimum over the ground-truth axis, at a predicted point: the fold of `min` from `+∞` over that axis's
    coordinates is the infimum of the masked distances. -/
theorem v15_at (x0 x1 : Cert.ChamferSpec.SPts.Idx → EReal) (x2 : Cert.ChamferSpec.SVal.Idx → BitVec 1)
    (h0 : ∀ i, Cert.Lib.IsReal (x0 i)) (h1 : ∀ i, Cert.Lib.IsReal (x1 i)) (b : Fin 4) (n : Fin 8192) :
    val_main_v15 (F := Ideal) x0 x1 x2 (ix2 b n) = Cert.ChamferSpec.rowMinAt x0 x1 x2 b n := by
  have hR : Cert.ReferenceIdeal.S4x8192x8192.Reduces [2] Cert.ReferenceIdeal.S4x8192 := by decide
  unfold val_main_v15
  refine (Host.reduce_eq_fold_single _ _ _ _ hR _ (ix2 b n)).trans ?_
  have ef : (val_main_v14 (F := Ideal) x0 x1 x2 ∘ hR.lift (ix2 b n))
      = fun m : Fin 8192 => Cert.ChamferSpec.dist2 x0 x1 b n m + Cert.ChamferSpec.maskAdd x2 b m := by
    funext k
    have ek : hR.lift (ix2 b n) k = ix3 b n k :=
      funext fun a => Fin.ext (by match a with | ⟨0, _⟩ => rfl | ⟨1, _⟩ => rfl | ⟨2, _⟩ => rfl)
    rw [Function.comp_apply, ek]
    exact v14_apply x0 x1 x2 h0 h1 b n k
  rw [ef, val_main_cst_3_apply, Ideal.ofBits_def, ofBits_inf]
  rfl

/-- The reference's array of masked minima over the ground-truth axis is the array of row minima. -/
theorem v15_eq (x0 x1 : Cert.ChamferSpec.SPts.Idx → EReal) (x2 : Cert.ChamferSpec.SVal.Idx → BitVec 1)
    (h0 : ∀ i, Cert.Lib.IsReal (x0 i)) (h1 : ∀ i, Cert.Lib.IsReal (x1 i)) :
    val_main_v15 (F := Ideal) x0 x1 x2 = Cert.ChamferSpec.rowMin x0 x1 x2 := by
  funext i
  obtain ⟨b, n, rfl⟩ : ∃ (b : Fin 4) (n : Fin 8192), i = ix2 b n := ⟨i 0, i 1, eq_ix2 i⟩
  exact v15_at x0 x1 x2 h0 h1 b n

/-- The minimum over the predicted axis, at a ground-truth point: the fold of `min` from `+∞` over that axis's
    coordinates is the infimum of the distances. -/
theorem v19_at (x0 x1 : Cert.ChamferSpec.SPts.Idx → EReal)
    (h0 : ∀ i, Cert.Lib.IsReal (x0 i)) (h1 : ∀ i, Cert.Lib.IsReal (x1 i)) (b : Fin 4) (m : Fin 8192) :
    val_main_v19 (F := Ideal) x0 x1 (ix2 b m) = Cert.ChamferSpec.colMinAt x0 x1 b m := by
  have hR : Cert.ReferenceIdeal.S4x8192x8192.Reduces [1] Cert.ReferenceIdeal.S4x8192 := by decide
  unfold val_main_v19
  refine (Host.reduce_eq_fold_single _ _ _ _ hR _ (ix2 b m)).trans ?_
  have ef : (val_main_v12 (F := Ideal) x0 x1 ∘ hR.lift (ix2 b m))
      = fun n : Fin 8192 => Cert.ChamferSpec.dist2 x0 x1 b n m := by
    funext k
    have ek : hR.lift (ix2 b m) k = ix3 b k m :=
      funext fun a => Fin.ext (by match a with | ⟨0, _⟩ => rfl | ⟨1, _⟩ => rfl | ⟨2, _⟩ => rfl)
    rw [Function.comp_apply, ek]
    exact v12_apply x0 x1 h0 h1 b k m
  rw [ef, val_main_cst_6_apply, Ideal.ofBits_def, ofBits_inf]
  rfl

/-- The reference's array of minima over the predicted axis is the array of column minima. -/
theorem v19_eq (x0 x1 : Cert.ChamferSpec.SPts.Idx → EReal)
    (h0 : ∀ i, Cert.Lib.IsReal (x0 i)) (h1 : ∀ i, Cert.Lib.IsReal (x1 i)) :
    val_main_v19 (F := Ideal) x0 x1 = Cert.ChamferSpec.colMin x0 x1 := by
  funext i
  obtain ⟨b, m, rfl⟩ : ∃ (b : Fin 4) (m : Fin 8192), i = ix2 b m := ⟨i 0, i 1, eq_ix2 i⟩
  exact v19_at x0 x1 h0 h1 b m

/-- The reference's scalar is the shared scalar of its two arrays of minima and the validity bits: from the minima
    on, its operations are those of the shared scalar, in the same order. -/
theorem v33_tail (x0 x1 : Cert.ChamferSpec.SPts.Idx → EReal) (x2 : Cert.ChamferSpec.SVal.Idx → BitVec 1) :
    val_main_v33 (F := Ideal) x0 x1 x2
      = Cert.ChamferSpec.tail (val_main_v15 (F := Ideal) x0 x1 x2) (val_main_v19 (F := Ideal) x0 x1) x2 := by
  unfold val_main_v33 val_main_v32 val_main_v31 val_main_v30 val_main_v29 val_main_v28 val_main_v27 val_main_v26
    val_main_v25 val_main_v24 val_main_v23 val_main_v22 val_main_v21 val_main_v20 val_main_v18 val_main_v17
    val_main_v16 val_main_cst_4 val_main_cst_5 val_main_cst_7 val_main_cst_8 val_main_cst_9 val_main_cst_10
    val_main_cst_11 val_main_cst_12 val_main_cst_13 Cert.ChamferSpec.tail
  rfl

/-- Every weakly fair execution of the reference terminates with its result the shared scalar of the row and
    column minima of the arguments, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hpr : ∀ (c : Dev Cert.ReferenceIdeal.nD) i, Cert.Lib.IsReal (m ((c.tc : Thread Cert.ReferenceIdeal.nD Cert.ReferenceIdeal.τ).loc Cert.ReferenceIdeal.main_arg0) i))
    (hgt : ∀ (c : Dev Cert.ReferenceIdeal.nD) i, Cert.Lib.IsReal (m ((c.tc : Thread Cert.ReferenceIdeal.nD Cert.ReferenceIdeal.τ).loc Cert.ReferenceIdeal.main_arg1) i)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v33)
          = Cert.ChamferSpec.tail
              (Cert.ChamferSpec.rowMin (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)))
              (Cert.ChamferSpec.colMin (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans (by
        rw [val_main_v33_eq, v33_tail, v15_eq _ _ _ (hpr c) (hgt c), v19_eq _ _ (hpr c) (hgt c)]), (h c).2⟩)
    (Cert.ReferenceIdeal.Value.run m ρ)

end Cert.RefValue

end
-- ==== Proof.FiniteInputs.lean ====
/-
  From the precondition to the reality of the float inputs.

  The precondition is the conjunction of two statements of the same shape, one per point array: the conjunction, over
  every entry `x` of the array, of the comparison `|x| < +∞`, where `|x| = max x (-x)` on the extended reals. A
  conjunction of bits that is `1` has every bit `1`; a comparison bit that is `1` says the strict inequality holds; and
  an extended real whose absolute value lies strictly below `+∞` is neither infinity, that is, it is the image of a
  real number.
-/
import proofs.«414502_j84739704750726_3_alg».proof.Defs
import proofs.«414502_j84739704750726_3_alg».proof.Proof.Gen.Pre_finite_inputs
import proofs.«414502_j84739704750726_3_alg».proof.Proof.Gen.KernelIdeal
import proofs.«414502_j84739704750726_3_alg».proof.Proof.LibIdealReal
import Idealize.ShloMosaic.Lib.ReduceAll
import Idealize.ShloMosaic.Lib.ValueIdx

namespace Cert.FiniteInputs

open Idealize.ShloMosaic Idealize.SL.Sem

/-- The scalar shape has a single index. -/
instance : Subsingleton Cert.Pre_finite_inputs.S_.Idx := ⟨fun a b => funext fun d => d.elim0⟩

/-- The `f32` pattern of the positive infinity denotes `+∞`. -/
theorem ofBits_inf : Ideal.ofBits .f32 0x7F800000#32 = (⊤ : EReal) := by
  simp [Ideal.ofBits, Ideal.ieee]

/-- A comparison bit `|x| < +∞` that is `1` makes `x` real. -/
theorem isReal_of_cmp {x : EReal}
    (h : Ideal.cmp .olt (Max.max x (-x)) (Ideal.ofBits .f32 0x7F800000#32) = 1#1) : Cert.Lib.IsReal x := by
  rw [ofBits_inf] at h
  refine Cert.Lib.isReal_of_abs_lt_top ?_
  by_contra hn
  simp [Ideal.cmp, hn] at h

/-- The precondition, read back: if the conjunction of the two all-entries comparisons is `1`, every entry of both
    point arrays is real. The validity bits play no part. -/
theorem isReal_of_fn [Cert.Pre_finite_inputs.Facts]
    (x y : FVec Ideal Cert.Pre_finite_inputs.S4x8192x3 .f32) (z : IVec Cert.Pre_finite_inputs.S4x8192 1)
    (h : Cert.Pre_finite_inputs.fn (F := Ideal) x y z = fun _ => 1#1) :
    (∀ i, Cert.Lib.IsReal (x i)) ∧ (∀ i, Cert.Lib.IsReal (y i)) := by
  have h0 := congrFun h ValueIdx.ix0
  dsimp only [Cert.Pre_finite_inputs.fn] at h0
  obtain ⟨hx, hy⟩ := IntOp.andi_eq_one.1 h0
  exact ⟨fun i => isReal_of_cmp (Host.reduce_andi_all _ _ _ _ _ hx i),
    fun i => isReal_of_cmp (Host.reduce_andi_all _ _ _ _ _ hy i)⟩

/-- Under the certificate's precondition every entry of the two point arrays, on every device, is real. -/
theorem isReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, Cert.Lib.IsReal (m ((c.tc : Thread Cert.KernelIdeal.nD Cert.KernelIdeal.τ).loc Cert.KernelIdeal.main_arg0) i))
    ∧ (∀ i, Cert.Lib.IsReal (m ((c.tc : Thread Cert.KernelIdeal.nD Cert.KernelIdeal.τ).loc Cert.KernelIdeal.main_arg1) i)) :=
  isReal_of_fn _ _ _ (h c)

end Cert.FiniteInputs
-- ==== Proof.lean ====
/-
  The kernel is a fused bidirectional Chamfer distance: for four batches of 8192 predicted and 8192 ground-truth
  points it forms the squared distances tile by tile (1024 predicted by 2048 ground-truth points a tile), keeps a
  running row minimum over the valid ground-truth points in a scratch and a running column minimum over the
  predicted points in its second output, and the host reduces the two arrays of minima to one scalar. The reference
  forms the same squared distances as a² + b² − 2ab and takes the same minima and the same scalar.

  The three frames: the kernel program's body is run once per case of its control on any staging buffers, and the
  pipeline's launch theorem carries that to the whole program, at the word-level instance and at the ideal one from
  one text; the reference is a host program and its frame is its run with the result dropped.
  The kernel's idealization rewrote nothing, so there is nothing to preserve.
  The equivalence over the extended reals: both programs end at the shared scalar of the row and column minima. On the
  kernel side an induction over the grid points shows the scratch and the column-minimum block hold prefix infima; on
  the reference side a² + b² − 2ab is the sum of squared differences because every input is a real number, which is
  what the precondition says, and a minimum with a masked entry replaced by +∞ is the minimum of the sum with the
  additive mask.
-/
import proofs.«414502_j84739704750726_3_alg».proof.Defs
import proofs.«414502_j84739704750726_3_alg».proof.Proof.Gen.Kernel
import proofs.«414502_j84739704750726_3_alg».proof.Proof.Gen.KernelIdeal
import proofs.«414502_j84739704750726_3_alg».proof.Proof.Gen.ReferenceIdeal
import proofs.«414502_j84739704750726_3_alg».proof.Proof.Gen.ReferenceIdeal.Run
import proofs.«414502_j84739704750726_3_alg».proof.Proof.Gen.Pre_finite_inputs
import proofs.«414502_j84739704750726_3_alg».proof.Proof.KbBody
import proofs.«414502_j84739704750726_3_alg».proof.Proof.KiBody
import proofs.«414502_j84739704750726_3_alg».proof.Proof.KiResult
import proofs.«414502_j84739704750726_3_alg».proof.Proof.RefValue
import proofs.«414502_j84739704750726_3_alg».proof.Proof.FiniteInputs
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories agreeing on the arguments, end at the shared scalar of the row and column minima of
    the kernel's arguments; the reference's inputs are real because the kernel's are. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.Result.run m ρ, ?_⟩
  refine (θ_run (Cert.ReferenceIdeal.defs (F := Ideal)) _ _).mono (fun _ h c => ⟨(h c).1.trans ?_, (h c).2⟩)
    (Cert.RefValue.run m' ρ'
      (fun c i => by rw [(hagree c).1]; exact (Cert.FiniteInputs.isReal_of_pre m hpre c).1 i)
      (fun c i => by rw [(hagree c).2.1]; exact (Cert.FiniteInputs.isReal_of_pre m hpre c).2 i))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
